-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S65536 : Shape := ⟨1, ![65536]⟩
abbrev S32x1024 : Shape := ⟨2, ![32, 1024]⟩
abbrev S256x1024 : Shape := ⟨2, ![256, 1024]⟩
abbrev S256 : Shape := ⟨1, ![256]⟩
abbrev S256x32 : Shape := ⟨2, ![256, 32]⟩
abbrev S8x32 : Shape := ⟨2, ![8, 32]⟩
abbrev S8 : Shape := ⟨1, ![8]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S32x1024 : S_.BroadcastsInDim S32x1024 (![] : Fin 0 → Fin S32x1024.rank)
  reducesTo_S32x1024_S_d0_1 : S32x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S256x32 : S_.BroadcastsInDim S256x32 (![] : Fin 0 → Fin S256x32.rank)
  reducesTo_S256x32_S_d0_1 : S256x32.ReducesTo [0, 1] S_
  bcast_S_S8x32 : S_.BroadcastsInDim S8x32 (![] : Fin 0 → Fin S8x32.rank)
  reducesTo_S8x32_S_d0_1 : S8x32.ReducesTo [0, 1] S_
  bcast_S_S8 : S_.BroadcastsInDim S8 (![] : Fin 0 → Fin S8.rank)
  reducesTo_S8_S_d0 : S8.ReducesTo [0] S_
  bcast_S_S65536 : S_.BroadcastsInDim S65536 (![] : Fin 0 → Fin S65536.rank)
  reducesTo_S65536_S_d0 : S65536.ReducesTo [0] S_

variable [Facts]

def fn_part2 {F : FTy → Type} [FloatOps F] (main_arg1 : IVec S65536 32) (main_arg8 : FVec F S8 .f32) (main_v33 : IVec S_ 1) : IVec S_ 1 :=
  let main_v34 : FVec F S8 .f32 := Host.absf main_arg8
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_c_14 : IVec S_ 32 := constantI S_ 32 0#32
  let main_v39 : IVec S65536 32 := broadcastInDim S65536 ![] bcast_S_S65536 main_c_14
  let main_v40 : IVec S65536 1 := cmpi .sge main_arg1 main_v39
  let main_c_15 : IVec S_ 32 := constantI S_ 32 8#32
  let main_v41 : IVec S65536 32 := broadcastInDim S65536 ![] bcast_S_S65536 main_c_15
  let main_v42 : IVec S65536 1 := cmpi .slt main_arg1 main_v41
  let main_v43 : IVec S65536 1 := andi main_v40 main_v42
  let main_c_16 : IVec S_ 1 := constantI S_ 1 1#1
  let main_v44 : IVec S_ 1 := (fun x v => Host.reduce IntOp.andi x v reducesTo_S65536_S_d0 h_S_) main_v43 main_c_16
  let main_v45 : IVec S_ 1 := andi main_v38 main_v44
  main_v45

def fn_part1 {F : FTy → Type} [FloatOps F] (main_arg1 : IVec S65536 32) (main_arg5 : FVec F S256x32 .f32) (main_arg6 : FVec F S256 .f32) (main_arg7 : FVec F S8x32 .f32) (main_arg8 : FVec F S8 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x32 .f32 := Host.absf main_arg5
  let main_cst_6 : FVec F S_ .f32 := constant S_ .f32 0x7F800000#32
  let main_v20 : FVec F S256x32 .f32 := broadcastInDim S256x32 ![] bcast_S_S256x32 main_cst_6
  let main_v21 : IVec S256x32 1 := cmpf .olt main_v19 main_v20
  let main_c_7 : IVec S_ 1 := constantI S_ 1 1#1
  let main_v22 : IVec S_ 1 := (fun x v => Host.reduce IntOp.andi x v reducesTo_S256x32_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S8x32 .f32 := Host.absf main_arg7
  let main_cst_10 : FVec F S_ .f32 := constant S_ .f32 0x7F800000#32
  let main_v30 : FVec F S8x32 .f32 := broadcastInDim S8x32 ![] bcast_S_S8x32 main_cst_10
  let main_v31 : IVec S8x32 1 := cmpf .olt main_v29 main_v30
  let main_c_11 : IVec S_ 1 := constantI S_ 1 1#1
  let main_v32 : IVec S_ 1 := (fun x v => Host.reduce IntOp.andi x v reducesTo_S8x32_S_d0_1 h_S_) main_v31 main_c_11
  let main_v33 : IVec S_ 1 := andi main_v28 main_v32
  fn_part2 (F := F) main_arg1 main_arg8 main_v33

def fn {F : FTy → Type} [FloatOps F] (main_arg0 : FVec F S65536x1024 .f32) (main_arg1 : IVec S65536 32) (main_arg2 : FVec F S32x1024 .f32) (main_arg3 : FVec F S256x1024 .f32) (main_arg4 : FVec F S256 .f32) (main_arg5 : FVec F S256x32 .f32) (main_arg6 : FVec F S256 .f32) (main_arg7 : FVec F S8x32 .f32) (main_arg8 : FVec F S8 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S32x1024 .f32 := Host.absf main_arg2
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  let main_v9 : FVec F S256x1024 .f32 := Host.absf main_arg3
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_arg7 main_arg8 main_v13 main_v16
-- ==== Kernel.lean ====
abbrev S65536x1024 : Shape := ⟨2, ![65536, 1024]⟩
abbrev S65536 : Shape := ⟨1, ![65536]⟩
abbrev S32x1024 : Shape := ⟨2, ![32, 1024]⟩
abbrev S256x1024 : Shape := ⟨2, ![256, 1024]⟩
abbrev S256 : Shape := ⟨1, ![256]⟩
abbrev S256x32 : Shape := ⟨2, ![256, 32]⟩
abbrev S8x32 : Shape := ⟨2, ![8, 32]⟩
abbrev S8 : Shape := ⟨1, ![8]⟩
abbrev S_ : Shape := ⟨0, ![]⟩
abbrev S65536x1 : Shape := ⟨2, ![65536, 1]⟩
abbrev S1x8 : Shape := ⟨2, ![1, 8]⟩
abbrev S65536x8 : Shape := ⟨2, ![65536, 8]⟩
abbrev S1x32x1x1024 : Shape := ⟨4, ![1, 32, 1, 1024]⟩
abbrev S8x32x1x1024 : Shape := ⟨4, ![8, 32, 1, 1024]⟩
abbrev S1x65536 : Shape := ⟨2, ![1, 65536]⟩
abbrev S2048x1024 : Shape := ⟨2, ![2048, 1024]⟩
abbrev S2048x8 : Shape := ⟨2, ![2048, 8]⟩
abbrev S1x2048 : Shape := ⟨2, ![1, 2048]⟩
abbrev S1024x256 : Shape := ⟨2, ![1024, 256]⟩
abbrev S2048x256 : Shape := ⟨2, ![2048, 256]⟩
abbrev S1x256 : Shape := ⟨2, ![1, 256]⟩
abbrev S2048x32 : Shape := ⟨2, ![2048, 32]⟩
abbrev S2048x1 : Shape := ⟨2, ![2048, 1]⟩
abbrev S32x256 : Shape := ⟨2, ![32, 256]⟩
abbrev S32x8 : Shape := ⟨2, ![32, 8]⟩
abbrev S2048 : Shape := ⟨1, ![2048]⟩

abbrev nBuf : Space → Nat
  | .hbm => 32
  | .vmem => 12
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S32x1024, .f32⟩
  | .hbm, ⟨3, _⟩ => ⟨S256x1024, .f32⟩
  | .hbm, ⟨4, _⟩ => ⟨S256, .f32⟩
  | .hbm, ⟨5, _⟩ => ⟨S256x32, .f32⟩
  | .hbm, ⟨6, _⟩ => ⟨S256, .f32⟩
  | .hbm, ⟨7, _⟩ => ⟨S8x32, .f32⟩
  | .hbm, ⟨8, _⟩ => ⟨S8, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S65536, .i32⟩
  | .hbm, ⟨13, _⟩ => ⟨S65536, .i32⟩
  | .hbm, ⟨14, _⟩ => ⟨S_, .i32⟩
  | .hbm, ⟨15, _⟩ => ⟨S65536, .i32⟩
  | .hbm, ⟨16, _⟩ => ⟨S65536, .i32⟩
  | .hbm, ⟨17, _⟩ => ⟨S65536x1, .i32⟩
  | .hbm, ⟨18, _⟩ => ⟨S1x8, .i32⟩
  | .hbm, ⟨19, _⟩ => ⟨S65536x8, .i32⟩
  | .hbm, ⟨20, _⟩ => ⟨S65536x8, .i32⟩
  | .hbm, ⟨21, _⟩ => ⟨S65536x8, .i1⟩
  | .hbm, ⟨22, _⟩ => ⟨S65536x8, .f32⟩
  | .hbm, ⟨23, _⟩ => ⟨S1x32x1x1024, .f32⟩
  | .hbm, ⟨24, _⟩ => ⟨S8x32x1x1024, .f32⟩
  | .hbm, ⟨25, _⟩ => ⟨S256x1024, .f32⟩
  | .hbm, ⟨26, _⟩ => ⟨S256x1024, .f32⟩
  | .hbm, ⟨27, _⟩ => ⟨S256x1024, .bf16⟩
  | .hbm, ⟨28, _⟩ => ⟨S256x32, .bf16⟩
  | .hbm, ⟨29, _⟩ => ⟨S8x32, .bf16⟩
  | .hbm, ⟨30, _⟩ => ⟨S1x65536, .f32⟩
  | .hbm, ⟨31, _⟩ => ⟨S65536x1, .f32⟩
  | .local _ .vmem, ⟨0, _⟩ => ⟨S2048x1024, .f32⟩
  | .local _ .vmem, ⟨1, _⟩ => ⟨S2048x1024, .f32⟩
  | .local _ .vmem, ⟨2, _⟩ => ⟨S2048x8, .f32⟩
  | .local _ .vmem, ⟨3, _⟩ => ⟨S2048x8, .f32⟩
  | .local _ .vmem, ⟨4, _⟩ => ⟨S256x1024, .bf16⟩
  | .local _ .vmem, ⟨5, _⟩ => ⟨S256, .f32⟩
  | .local _ .vmem, ⟨6, _⟩ => ⟨S256x32, .bf16⟩
  | .local _ .vmem, ⟨7, _⟩ => ⟨S256, .f32⟩
  | .local _ .vmem, ⟨8, _⟩ => ⟨S8x32, .bf16⟩
  | .local _ .vmem, ⟨9, _⟩ => ⟨S8, .f32⟩
  | .local _ .vmem, ⟨10, _⟩ => ⟨S1x2048, .f32⟩
  | .local _ .vmem, ⟨11, _⟩ => ⟨S1x2048, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x8_0_1 : S65536x1.BroadcastsInDim S65536x8 (![0, 1] : Fin 2 → Fin S65536x8.rank)
  bcast_S1x8_S65536x8_0_1 : S1x8.BroadcastsInDim S65536x8 (![0, 1] : Fin 2 → Fin S65536x8.rank)
  shapeCasts_S32x1024_S1x32x1x1024 : S32x1024.ShapeCasts S1x32x1x1024
  bcast_S1x32x1x1024_S8x32x1x1024_0_1_2_3 : S1x32x1x1024.BroadcastsInDim S8x32x1x1024 (![0, 1, 2, 3] : Fin 4 → Fin S8x32x1x1024.rank)
  shapeCasts_S8x32x1x1024_S256x1024 : S8x32x1x1024.ShapeCasts S256x1024
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  transposes_S256x1024_p1_0_S1024x256 : S256x1024.Transposes [1, 0] S1024x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  slices_S2048x8_o0_0_S2048x1 : S2048x8.Slices ![0, 0] S2048x1
  slices_S2048x256_o0_0_S2048x32 : S2048x256.Slices ![0, 0] S2048x32
  broadcasts_S2048x1_S2048x32 : S2048x1.Broadcasts S2048x32
  slices_S2048x8_o0_1_S2048x1 : S2048x8.Slices ![0, 1] S2048x1
  slices_S2048x256_o0_32_S2048x32 : S2048x256.Slices ![0, 32] S2048x32
  slices_S2048x8_o0_2_S2048x1 : S2048x8.Slices ![0, 2] S2048x1
  slices_S2048x256_o0_64_S2048x32 : S2048x256.Slices ![0, 64] S2048x32
  slices_S2048x8_o0_3_S2048x1 : S2048x8.Slices ![0, 3] S2048x1
  slices_S2048x256_o0_96_S2048x32 : S2048x256.Slices ![0, 96] S2048x32
  slices_S2048x8_o0_4_S2048x1 : S2048x8.Slices ![0, 4] S2048x1
  slices_S2048x256_o0_128_S2048x32 : S2048x256.Slices ![0, 128] S2048x32
  slices_S2048x8_o0_5_S2048x1 : S2048x8.Slices ![0, 5] S2048x1
  slices_S2048x256_o0_160_S2048x32 : S2048x256.Slices ![0, 160] S2048x32
  slices_S2048x8_o0_6_S2048x1 : S2048x8.Slices ![0, 6] S2048x1
  slices_S2048x256_o0_192_S2048x32 : S2048x256.Slices ![0, 192] S2048x32
  slices_S2048x8_o0_7_S2048x1 : S2048x8.Slices ![0, 7] S2048x1
  slices_S2048x256_o0_224_S2048x32 : S2048x256.Slices ![0, 224] S2048x32
  inb_S256x32_S256x32_0_0 : ∀ a, (![0, 0] : Fin 2 → Nat) a + S256x32.size a ≤ S256x32.size a
  h_S256x32 : 0 < S256x32.numel
  shapeCasts_S256x32_S256x32 : S256x32.ShapeCasts S256x32
  transposes_S256x32_p1_0_S32x256 : S256x32.Transposes [1, 0] S32x256
  inb_S8x32_S8x32_0_0 : ∀ a, (![0, 0] : Fin 2 → Nat) a + S8x32.size a ≤ S8x32.size a
  h_S8x32 : 0 < S8x32.numel
  shapeCasts_S8x32_S8x32 : S8x32.ShapeCasts S8x32
  transposes_S8x32_p1_0_S32x8 : S8x32.Transposes [1, 0] S32x8
  inb_S8_S8_0 : ∀ a, (![0] : Fin 1 → Nat) a + S8.size a ≤ S8.size a
  h_S8 : 0 < S8.numel
  shapeCasts_S8_S1x8 : S8.ShapeCasts S1x8
  broadcasts_S1x8_S2048x8 : S1x8.Broadcasts S2048x8
  reduces_S2048x8_S2048 : S2048x8.Reduces [1] S2048
  shapeCasts_S2048_S2048x1 : S2048.ShapeCasts S2048x1
  transposes_S2048x1_p1_0_S1x2048 : S2048x1.Transposes [1, 0] S1x2048
  inb_S1x2048_S1x2048_0_0 : ∀ a, (![0, 0] : Fin 2 → Nat) a + S1x2048.size a ≤ S1x2048.size a
  h_S1x2048 : 0 < S1x2048.numel
  shapeCasts_S1x65536_S65536x1 : S1x65536.ShapeCasts S65536x1
  dot_S2048x1024_S1024x256_S2048x256_1_0_0_1_n_n_wf : DotDims.WF S2048x1024 S1024x256 S2048x256 [1] [0] [0] [1] [] []
  dot_S2048x32_S32x256_S2048x256_1_0_0_1_n_n_wf : DotDims.WF S2048x32 S32x256 S2048x256 [1] [0] [0] [1] [] []
  dot_S2048x32_S32x8_S2048x8_1_0_0_1_n_n_wf : DotDims.WF S2048x32 S32x8 S2048x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x8.size a ≤ S65536x8.size a
  hwx0_1 : ∀ i : grid0.Coords, EltTy.bits .f32 = 32 ∨ (Rect.block (s := S65536x8) S2048x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .bf16 = 32 ∨ (Rect.block (s := S256x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x32.size a ≤ S256x32.size a
  hwx0_4 : ∀ i : grid0.Coords, EltTy.bits .bf16 = 32 ∨ (Rect.block (s := S256x32) S256x32.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x32.size a ≤ S8x32.size a
  hwx0_6 : ∀ i : grid0.Coords, EltTy.bits .bf16 = 32 ∨ (Rect.block (s := S8x32) S8x32.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8.size a ≤ S8.size a
  hwx0_7 : ∀ i : grid0.Coords, EltTy.bits .f32 = 32 ∨ (Rect.block (s := S8) S8.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x65536.size a
  hwx0_8 : ∀ i : grid0.Coords, EltTy.bits .f32 = 32 ∨ (Rect.block (s := S1x65536) S1x2048.size (cc0_transform_8 i) (hinb0_8 i)).WholeWords (EltTy.packing .f32)

variable [Facts₀]

def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x32_S32x256_S2048x256_1_0_0_1_n_n : DotDims S2048x32 S32x256 S2048x256 where
  lhsContracting := [1]
  rhsContracting := [0]
  lhsNonContracting := [0]
  rhsNonContracting := [1]
  lhsBatch := []
  rhsBatch := []
  wf := dot_S2048x32_S32x256_S2048x256_1_0_0_1_n_n_wf
def dot_S2048x32_S32x8_S2048x8_1_0_0_1_n_n : DotDims S2048x32 S32x8 S2048x8 where
  lhsContracting := [1]
  rhsContracting := [0]
  lhsNonContracting := [0]
  rhsNonContracting := [1]
  lhsBatch := []
  rhsBatch := []
  wf := dot_S2048x32_S32x8_S2048x8_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S256x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S8x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S65536 : Shape := ⟨1, ![65536]⟩
abbrev S32x1024 : Shape := ⟨2, ![32, 1024]⟩
abbrev S256x1024 : Shape := ⟨2, ![256, 1024]⟩
abbrev S256 : Shape := ⟨1, ![256]⟩
abbrev S256x32 : Shape := ⟨2, ![256, 32]⟩
abbrev S8x32 : Shape := ⟨2, ![8, 32]⟩
abbrev S8 : Shape := ⟨1, ![8]⟩
abbrev S_ : Shape := ⟨0, ![]⟩
abbrev S1024x32 : Shape := ⟨2, ![1024, 32]⟩
abbrev S65536x32 : Shape := ⟨2, ![65536, 32]⟩
abbrev S1024x256 : Shape := ⟨2, ![1024, 256]⟩
abbrev S65536x256 : Shape := ⟨2, ![65536, 256]⟩
abbrev S1x256 : Shape := ⟨2, ![1, 256]⟩
abbrev S65536x8x32 : Shape := ⟨3, ![65536, 8, 32]⟩
abbrev S524288x32 : Shape := ⟨2, ![524288, 32]⟩
abbrev S65536x1 : Shape := ⟨2, ![65536, 1]⟩
abbrev S32x256 : Shape := ⟨2, ![32, 256]⟩
abbrev S32x8 : Shape := ⟨2, ![32, 8]⟩
abbrev S65536x8 : Shape := ⟨2, ![65536, 8]⟩
abbrev S1x8 : Shape := ⟨2, ![1, 8]⟩
abbrev S65536x8x1 : Shape := ⟨3, ![65536, 8, 1]⟩
abbrev S524288x1 : Shape := ⟨2, ![524288, 1]⟩

abbrev nBuf : Space → Nat
  | .hbm => 81
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S32x1024, .f32⟩
  | .hbm, ⟨3, _⟩ => ⟨S256x1024, .f32⟩
  | .hbm, ⟨4, _⟩ => ⟨S256, .f32⟩
  | .hbm, ⟨5, _⟩ => ⟨S256x32, .f32⟩
  | .hbm, ⟨6, _⟩ => ⟨S256, .f32⟩
  | .hbm, ⟨7, _⟩ => ⟨S8x32, .f32⟩
  | .hbm, ⟨8, _⟩ => ⟨S8, .f32⟩
  | .hbm, ⟨9, _⟩ => ⟨S65536, .i32⟩
  | .hbm, ⟨10, _⟩ => ⟨S_, .i32⟩
  | .hbm, ⟨11, _⟩ => ⟨S65536, .i32⟩
  | .hbm, ⟨12, _⟩ => ⟨S65536, .i32⟩
  | .hbm, ⟨13, _⟩ => ⟨S65536, .i32⟩
  | .hbm, ⟨14, _⟩ => ⟨S1024x32, .f32⟩
  | .hbm, ⟨15, _⟩ => ⟨S65536x32, .f32⟩
  | .hbm, ⟨16, _⟩ => ⟨S1024x256, .f32⟩
  | .hbm, ⟨17, _⟩ => ⟨S65536x256, .f32⟩
  | .hbm, ⟨18, _⟩ => ⟨S1x256, .f32⟩
  | .hbm, ⟨19, _⟩ => ⟨S65536x256, .f32⟩
  | .hbm, ⟨20, _⟩ => ⟨S65536x256, .f32⟩
  | .hbm, ⟨21, _⟩ => ⟨S65536x8x32, .f32⟩
  | .hbm, ⟨22, _⟩ => ⟨S524288x32, .f32⟩
  | .hbm, ⟨23, _⟩ => ⟨S_, .i32⟩
  | .hbm, ⟨24, _⟩ => ⟨S65536, .i32⟩
  | .hbm, ⟨25, _⟩ => ⟨S65536, .i1⟩
  | .hbm, ⟨26, _⟩ => ⟨S_, .i32⟩
  | .hbm, ⟨27, _⟩ => ⟨S65536, .i32⟩
  | .hbm, ⟨28, _⟩ => ⟨S65536, .i32⟩
  | .hbm, ⟨29, _⟩ => ⟨S65536, .i32⟩
  | .hbm, ⟨30, _⟩ => ⟨S65536x1, .i32⟩
  | .hbm, ⟨31, _⟩ => ⟨S65536x32, .f32⟩
  | .hbm, ⟨32, _⟩ => ⟨S65536x32, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S65536x32, .f32⟩
  | .hbm, ⟨37, _⟩ => ⟨S65536x32, .f32⟩
  | .hbm, ⟨38, _⟩ => ⟨S_, .f32⟩
  | .hbm, ⟨39, _⟩ => ⟨S65536x32, .f32⟩
  | .hbm, ⟨40, _⟩ => ⟨S65536x32, .f32⟩
  | .hbm, ⟨41, _⟩ => ⟨S32x256, .f32⟩
  | .hbm, ⟨42, _⟩ => ⟨S65536x256, .f32⟩
  | .hbm, ⟨43, _⟩ => ⟨S1x256, .f32⟩
  | .hbm, ⟨44, _⟩ => ⟨S65536x256, .f32⟩
  | .hbm, ⟨45, _⟩ => ⟨S65536x256, .f32⟩
  | .hbm, ⟨46, _⟩ => ⟨S65536x8x32, .f32⟩
  | .hbm, ⟨47, _⟩ => ⟨S524288x32, .f32⟩
  | .hbm, ⟨48, _⟩ => ⟨S_, .i32⟩
  | .hbm, ⟨49, _⟩ => ⟨S65536, .i32⟩
  | .hbm, ⟨50, _⟩ => ⟨S65536, .i1⟩
  | .hbm, ⟨51, _⟩ => ⟨S_, .i32⟩
  | .hbm, ⟨52, _⟩ => ⟨S65536, .i32⟩
  | .hbm, ⟨53, _⟩ => ⟨S65536, .i32⟩
  | .hbm, ⟨54, _⟩ => ⟨S65536, .i32⟩
  | .hbm, ⟨55, _⟩ => ⟨S65536x1, .i32⟩
  | .hbm, ⟨56, _⟩ => ⟨S65536x32, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S65536x32, .f32⟩
  | .hbm, ⟨61, _⟩ => ⟨S65536x32, .f32⟩
  | .hbm, ⟨62, _⟩ => ⟨S_, .f32⟩
  | .hbm, ⟨63, _⟩ => ⟨S65536x32, .f32⟩
  | .hbm, ⟨64, _⟩ => ⟨S65536x32, .f32⟩
  | .hbm, ⟨65, _⟩ => ⟨S32x8, .f32⟩
  | .hbm, ⟨66, _⟩ => ⟨S65536x8, .f32⟩
  | .hbm, ⟨67, _⟩ => ⟨S1x8, .f32⟩
  | .hbm, ⟨68, _⟩ => ⟨S65536x8, .f32⟩
  | .hbm, ⟨69, _⟩ => ⟨S65536x8, .f32⟩
  | .hbm, ⟨70, _⟩ => ⟨S65536x8x1, .f32⟩
  | .hbm, ⟨71, _⟩ => ⟨S524288x1, .f32⟩
  | .hbm, ⟨72, _⟩ => ⟨S_, .i32⟩
  | .hbm, ⟨73, _⟩ => ⟨S65536, .i32⟩
  | .hbm, ⟨74, _⟩ => ⟨S65536, .i1⟩
  | .hbm, ⟨75, _⟩ => ⟨S_, .i32⟩
  | .hbm, ⟨76, _⟩ => ⟨S65536, .i32⟩
  | .hbm, ⟨77, _⟩ => ⟨S65536, .i32⟩
  | .hbm, ⟨78, _⟩ => ⟨S65536, .i32⟩
  | .hbm, ⟨79, _⟩ => ⟨S65536x1, .i32⟩
  | .hbm, ⟨80, _⟩ => ⟨S65536x1, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_0 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_3 : Ref sig .tc := ⟨.hbm, 48, rfl⟩
abbrev main_v29 : Ref sig .tc := ⟨.hbm, 49, rfl⟩
abbrev main_v30 : Ref sig .tc := ⟨.hbm, 50, rfl⟩
abbrev main_c_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_cst_6 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_7 : Ref sig .tc := ⟨.hbm, 72, rfl⟩
abbrev main_v44 : Ref sig .tc := ⟨.hbm, 73, rfl⟩
abbrev main_v45 : Ref sig .tc := ⟨.hbm, 74, rfl⟩
abbrev main_c_8 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  transposes_S32x1024_S1024x32_1_0 : S32x1024.Transposes [1, 0] S1024x32
  transposes_S256x1024_S1024x256_1_0 : S256x1024.Transposes [1, 0] S1024x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  shapeCasts_S65536x256_S65536x8x32 : S65536x256.ShapeCasts S65536x8x32
  shapeCasts_S65536x8x32_S524288x32 : S65536x8x32.ShapeCasts S524288x32
  bcast_S65536_S65536x1_0 : S65536.BroadcastsInDim S65536x1 (![0] : Fin 1 → Fin S65536x1.rank)
  bcast_S_S65536x32 : S_.BroadcastsInDim S65536x32 (![] : Fin 0 → Fin S65536x32.rank)
  transposes_S256x32_S32x256_1_0 : S256x32.Transposes [1, 0] S32x256
  transposes_S8x32_S32x8_1_0 : S8x32.Transposes [1, 0] S32x8
  bcast_S8_S1x8_1 : S8.BroadcastsInDim S1x8 (![1] : Fin 1 → Fin S1x8.rank)
  bcast_S1x8_S65536x8_0_1 : S1x8.BroadcastsInDim S65536x8 (![0, 1] : Fin 2 → Fin S65536x8.rank)
  shapeCasts_S65536x8_S65536x8x1 : S65536x8.ShapeCasts S65536x8x1
  shapeCasts_S65536x8x1_S524288x1 : S65536x8x1.ShapeCasts S524288x1
  dot_S65536x1024_S1024x32_S65536x32_1_0_0_1_n_n_wf : DotDims.WF S65536x1024 S1024x32 S65536x32 [1] [0] [0] [1] [] []
  dot_S65536x1024_S1024x256_S65536x256_1_0_0_1_n_n_wf : DotDims.WF S65536x1024 S1024x256 S65536x256 [1] [0] [0] [1] [] []
  gather_S524288x32_S65536x1_S65536x32_1_0_n_n_0_1_132_wf : GatherDims.WF S524288x32 S65536x1 S65536x32 [1] [0] [] [0] [] 1 ![1, 32]
  dot_S65536x32_S32x256_S65536x256_1_0_0_1_n_n_wf : DotDims.WF S65536x32 S32x256 S65536x256 [1] [0] [0] [1] [] []
  dot_S65536x32_S32x8_S65536x8_1_0_0_1_n_n_wf : DotDims.WF S65536x32 S32x8 S65536x8 [1] [0] [0] [1] [] []
  gather_S524288x1_S65536x1_S65536x1_1_0_n_n_0_1_11_wf : GatherDims.WF S524288x1 S65536x1 S65536x1 [1] [0] [] [0] [] 1 ![1, 1]

variable [Facts₀]

def dot_S65536x1024_S1024x32_S65536x32_1_0_0_1_n_n : DotDims S65536x1024 S1024x32 S65536x32 where
  lhsContracting := [1]
  rhsContracting := [0]
  lhsNonContracting := [0]
  rhsNonContracting := [1]
  lhsBatch := []
  rhsBatch := []
  wf := dot_S65536x1024_S1024x32_S65536x32_1_0_0_1_n_n_wf
def dot_S65536x1024_S1024x256_S65536x256_1_0_0_1_n_n : DotDims S65536x1024 S1024x256 S65536x256 where
  lhsContracting := [1]
  rhsContracting := [0]
  lhsNonContracting := [0]
  rhsNonContracting := [1]
  lhsBatch := []
  rhsBatch := []
  wf := dot_S65536x1024_S1024x256_S65536x256_1_0_0_1_n_n_wf
def gather_S524288x32_S65536x1_S65536x32_1_0_n_n_0_1_132 : GatherDims S524288x32 S65536x1 S65536x32 where
  offsetDims := [1]
  collapsedSliceDims := [0]
  operandBatchingDims := []
  startIndicesBatchingDims := []
  startIndexMap := [0]
  indexVectorDim := 1
  sliceSizes := ![1, 32]
  wf := gather_S524288x32_S65536x1_S65536x32_1_0_n_n_0_1_132_wf
def dot_S65536x32_S32x256_S65536x256_1_0_0_1_n_n : DotDims S65536x32 S32x256 S65536x256 where
  lhsContracting := [1]
  rhsContracting := [0]
  lhsNonContracting := [0]
  rhsNonContracting := [1]
  lhsBatch := []
  rhsBatch := []
  wf := dot_S65536x32_S32x256_S65536x256_1_0_0_1_n_n_wf
def dot_S65536x32_S32x8_S65536x8_1_0_0_1_n_n : DotDims S65536x32 S32x8 S65536x8 where
  lhsContracting := [1]
  rhsContracting := [0]
  lhsNonContracting := [0]
  rhsNonContracting := [1]
  lhsBatch := []
  rhsBatch := []
  wf := dot_S65536x32_S32x8_S65536x8_1_0_0_1_n_n_wf
def gather_S524288x1_S65536x1_S65536x1_1_0_n_n_0_1_11 : GatherDims S524288x1 S65536x1 S65536x1 where
  offsetDims := [1]
  collapsedSliceDims := [0]
  operandBatchingDims := []
  startIndicesBatchingDims := []
  startIndexMap := [0]
  indexVectorDim := 1
  sliceSizes := ![1, 1]
  wf := gather_S524288x1_S65536x1_S65536x1_1_0_n_n_0_1_11_wf

class Facts : Prop extends Facts₀ where

variable [Facts]
-- ==== Proof.BucketNet.lean ====
/-
  One row of the bucketed three-layer network, written twice.

  A row x of 1024 inputs passes through three dense layers.  Each of the first two layers has 256 units in 8 buckets of 32
  (unit 32·c + j is unit j of bucket c); the last has one unit per bucket.  Only the units of the row's own bucket c
  matter: the first hidden vector is h0 j = clip (x·W0[32c+j] + B0[32c+j] + x·WF[j]), the second
  h1 j = clip (h0·W1[32c+j] + B1[32c+j]), the result h1·W2[c] + B2[c], where clip v = min 1 (max 0 v).

  The selecting form computes every bucket and then weights bucket c' by a number oh c' and adds the eight products up,
  with the factor table WF already added to every bucket's rows of W0.  When oh is the indicator of c the two forms
  agree: 0·v = 0 and 1·v = v hold for every extended real v, so the selection needs no finiteness; joining WF to W0
  needs x·(a + b) = x·a + x·b, which holds for real x, a, b.
-/
import Idealize.ShloMosaic.Lib.ValueIdx
import Idealize.ShloMosaic.PureOps.Ideal.Laws

noncomputable section

open scoped BigOperators

namespace Cert.BucketNet

open Idealize.ShloMosaic Idealize.ShloMosaic.ValueIdx

/-- Unit j of bucket c among the 256 units of a bucketed layer. -/
def unit (c : Fin 8) (j : Fin 32) : Fin 256 := ⟨32 * c.val + j.val, by have := c.isLt; have := j.isLt; omega⟩

/-- The bucket a 32-bit label names (labels are in range under the precondition; the remainder makes this total). -/
def bucket (w : BitVec 32) : Fin 8 := ⟨w.toNat % 8, Nat.mod_lt _ (by decide)⟩

/-- An extended real that is a real number. -/
def IsReal (v : EReal) : Prop := ∃ r : ℝ, v = (r : EReal)

/-- Clamp to [0, 1], the bounds as the two programs spell them. -/
def clip01 (v : EReal) : EReal := min (Ideal.ofBits .f32 0x3F800000#32) (max (Ideal.ofBits .f32 0x00000000#32) v)

/-- One unit of a dense layer: the inner product of the input with the unit's weight row, plus its bias. -/
def dense {K N : Nat} (W : (⟨2, ![N, K]⟩ : Shape).Idx → EReal) (B : (⟨1, ![N]⟩ : Shape).Idx → EReal)
    (h : Fin K → EReal) (n : Fin N) : EReal :=
  (∑ k : Fin K, h k * W (ix2 n k)) + B (ix1 n)

/-- The indicator of bucket c over the eight buckets. -/
def onehot (c : Fin 8) : Fin 8 → EReal := fun c' => if c' = c then 1 else 0

/-- The eight buckets' values weighted and added up, in the order the selecting form adds them, from a start value. -/
def sel8 (z : EReal) (oh f : Fin 8 → EReal) : EReal :=
  z + oh 0 * f 0 + oh 1 * f 1 + oh 2 * f 2 + oh 3 * f 3 + oh 4 * f 4 + oh 5 * f 5 + oh 6 * f 6 + oh 7 * f 7

/-- The factor table repeated for every bucket: row 32·c + j of the result is row j of WF. -/
def tile (WF : (⟨2, ![32, 1024]⟩ : Shape).Idx → EReal) : (⟨2, ![256, 1024]⟩ : Shape).Idx → EReal :=
  fun i => WF (ix2 ⟨(i 0).val % 32, Nat.mod_lt _ (by decide)⟩ (i 1))

/-- The first layer's weights with the factor table joined on: every bucket's row j gets row j of WF added. -/
def joined (W0 : (⟨2, ![256, 1024]⟩ : Shape).Idx → EReal) (WF : (⟨2, ![32, 1024]⟩ : Shape).Idx → EReal) :
    (⟨2, ![256, 1024]⟩ : Shape).Idx → EReal :=
  fun i => W0 i + tile WF i

/-- The selecting form of one row: every bucket computed, the weights oh choosing among them. -/
def rowSel (xr : Fin 1024 → EReal) (oh : Fin 8 → EReal)
    (W0 : (⟨2, ![256, 1024]⟩ : Shape).Idx → EReal) (B0 : (⟨1, ![256]⟩ : Shape).Idx → EReal)
    (W1 : (⟨2, ![256, 32]⟩ : Shape).Idx → EReal) (B1 : (⟨1, ![256]⟩ : Shape).Idx → EReal)
    (W2 : (⟨2, ![8, 32]⟩ : Shape).Idx → EReal) (B2 : (⟨1, ![8]⟩ : Shape).Idx → EReal) : EReal :=
  let h0 : Fin 32 → EReal := fun j => clip01 (sel8 (Ideal.ofBits .f32 0x00000000#32) oh fun c => dense W0 B0 xr (unit c j))
  let h1 : Fin 32 → EReal := fun j => clip01 (sel8 (Ideal.ofBits .f32 0x00000000#32) oh fun c => dense W1 B1 h0 (unit c j))
  ∑ c : Fin 8, oh c * dense W2 B2 h1 c

/-- The row's own bucket only, the factor term added after the first layer's bias. -/
def rowOwn (xr : Fin 1024 → EReal) (c : Fin 8) (WF : (⟨2, ![32, 1024]⟩ : Shape).Idx → EReal)
    (W0 : (⟨2, ![256, 1024]⟩ : Shape).Idx → EReal) (B0 : (⟨1, ![256]⟩ : Shape).Idx → EReal)
    (W1 : (⟨2, ![256, 32]⟩ : Shape).Idx → EReal) (B1 : (⟨1, ![256]⟩ : Shape).Idx → EReal)
    (W2 : (⟨2, ![8, 32]⟩ : Shape).Idx → EReal) (B2 : (⟨1, ![8]⟩ : Shape).Idx → EReal) : EReal :=
  let h0 : Fin 32 → EReal := fun j => clip01 (dense W0 B0 xr (unit c j) + ∑ k : Fin 1024, xr k * WF (ix2 j k))
  let h1 : Fin 32 → EReal := fun j => clip01 (dense W1 B1 h0 (unit c j))
  dense W2 B2 h1 c

/-- The selecting form over whole arrays: entry (b, 0) of the result is the selecting form of row b. -/
def outSel (x : (⟨2, ![65536, 1024]⟩ : Shape).Idx → EReal) (oh : (⟨2, ![65536, 8]⟩ : Shape).Idx → EReal)
    (W0 : (⟨2, ![256, 1024]⟩ : Shape).Idx → EReal) (B0 : (⟨1, ![256]⟩ : Shape).Idx → EReal)
    (W1 : (⟨2, ![256, 32]⟩ : Shape).Idx → EReal) (B1 : (⟨1, ![256]⟩ : Shape).Idx → EReal)
    (W2 : (⟨2, ![8, 32]⟩ : Shape).Idx → EReal) (B2 : (⟨1, ![8]⟩ : Shape).Idx → EReal) :
    (⟨2, ![65536, 1]⟩ : Shape).Idx → EReal :=
  fun i => rowSel (fun k => x (ix2 (i 0) k)) (fun c => oh (ix2 (i 0) c)) W0 B0 W1 B1 W2 B2

/-- The own-bucket form over whole arrays, the bucket of row b read off the label array. -/
def outOwn (x : (⟨2, ![65536, 1024]⟩ : Shape).Idx → EReal) (ls : (⟨1, ![65536]⟩ : Shape).Idx → BitVec 32)
    (WF : (⟨2, ![32, 1024]⟩ : Shape).Idx → EReal)
    (W0 : (⟨2, ![256, 1024]⟩ : Shape).Idx → EReal) (B0 : (⟨1, ![256]⟩ : Shape).Idx → EReal)
    (W1 : (⟨2, ![256, 32]⟩ : Shape).Idx → EReal) (B1 : (⟨1, ![256]⟩ : Shape).Idx → EReal)
    (W2 : (⟨2, ![8, 32]⟩ : Shape).Idx → EReal) (B2 : (⟨1, ![8]⟩ : Shape).Idx → EReal) :
    (⟨2, ![65536, 1]⟩ : Shape).Idx → EReal :=
  fun i => rowOwn (fun k => x (ix2 (i 0) k)) (bucket (ls (ix1 (i 0)))) WF W0 B0 W1 B1 W2 B2

/-- Weighted by an indicator, the eight-term sum from zero is the indicated term. -/
theorem sel8_onehot (c : Fin 8) (f : Fin 8 → EReal) : sel8 (Ideal.ofBits .f32 0x00000000#32) (onehot c) f = f c := by
  rw [Ideal.ofBits_zero_f32]
  unfold sel8 onehot
  fin_cases c <;> simp

/-- Weighted by an indicator, the sum over the buckets is the indicated term. -/
theorem sum_onehot (c : Fin 8) (f : Fin 8 → EReal) : ∑ c' : Fin 8, onehot c c' * f c' = f c := by
  unfold onehot
  simp only [ite_mul, one_mul, zero_mul]
  rw [Finset.sum_ite_eq']
  simp

/-- A unit's index modulo 32 is its place within its bucket. -/
theorem tile_unit (WF : (⟨2, ![32, 1024]⟩ : Shape).Idx → EReal) (c : Fin 8) (j : Fin 32) (k : Fin 1024) :
    tile WF (ix2 (unit c j) k) = WF (ix2 j k) := by
  have hj : (⟨(32 * c.val + j.val) % 32, Nat.mod_lt _ (by decide)⟩ : Fin 32) = j :=
    Fin.ext (by show (32 * c.val + j.val) % 32 = j.val; have := j.isLt; omega)
  show WF (ix2 (⟨(32 * c.val + j.val) % 32, Nat.mod_lt _ (by decide)⟩ : Fin 32) k) = _
  rw [hj]

/-- With the factor table joined to the first layer's weights, a unit's value is its own value plus the factor term:
    x·(a + b) = x·a + x·b termwise over reals, and the bias moves past the second sum. -/
theorem dense_fold (xr : Fin 1024 → EReal) (WF : (⟨2, ![32, 1024]⟩ : Shape).Idx → EReal)
    (W0 : (⟨2, ![256, 1024]⟩ : Shape).Idx → EReal) (B0 : (⟨1, ![256]⟩ : Shape).Idx → EReal)
    (hx : ∀ k, IsReal (xr k)) (hWF : ∀ i, IsReal (WF i)) (hW0 : ∀ i, IsReal (W0 i)) (c : Fin 8) (j : Fin 32) :
    dense (joined W0 WF) B0 xr (unit c j)
      = dense W0 B0 xr (unit c j) + ∑ k : Fin 1024, xr k * WF (ix2 j k) := by
  have hterm : ∀ k : Fin 1024, xr k * (W0 (ix2 (unit c j) k) + tile WF (ix2 (unit c j) k))
      = xr k * W0 (ix2 (unit c j) k) + xr k * WF (ix2 j k) := by
    intro k
    rw [tile_unit]
    obtain ⟨a, ha⟩ := hx k
    obtain ⟨b, hb⟩ := hW0 (ix2 (unit c j) k)
    obtain ⟨d, hd⟩ := hWF (ix2 j k)
    rw [ha, hb, hd, ← EReal.coe_add, ← EReal.coe_mul, ← EReal.coe_mul, ← EReal.coe_mul, ← EReal.coe_add, mul_add]
  unfold dense
  have hsum : (∑ k : Fin 1024, xr k * joined W0 WF (ix2 (unit c j) k))
      = (∑ k : Fin 1024, xr k * W0 (ix2 (unit c j) k)) + ∑ k : Fin 1024, xr k * WF (ix2 j k) := by
    rw [← Finset.sum_add_distrib]
    exact Finset.sum_congr rfl fun k _ => hterm k
  rw [hsum]
  exact add_right_comm _ _ _

/-- The two forms of a row agree when the weights are the indicator of the row's bucket and the factor table has been
    joined to the first layer's weights, the inputs and those two tables real. -/
theorem rowSel_eq_rowOwn (xr : Fin 1024 → EReal) (c : Fin 8) (WF : (⟨2, ![32, 1024]⟩ : Shape).Idx → EReal)
    (W0 : (⟨2, ![256, 1024]⟩ : Shape).Idx → EReal) (B0 : (⟨1, ![256]⟩ : Shape).Idx → EReal)
    (W1 : (⟨2, ![256, 32]⟩ : Shape).Idx → EReal) (B1 : (⟨1, ![256]⟩ : Shape).Idx → EReal)
    (W2 : (⟨2, ![8, 32]⟩ : Shape).Idx → EReal) (B2 : (⟨1, ![8]⟩ : Shape).Idx → EReal)
    (hx : ∀ k, IsReal (xr k)) (hWF : ∀ i, IsReal (WF i)) (hW0 : ∀ i, IsReal (W0 i)) :
    rowSel xr (onehot c) (joined W0 WF) B0 W1 B1 W2 B2 = rowOwn xr c WF W0 B0 W1 B1 W2 B2 := by
  unfold rowSel rowOwn
  simp only [sel8_onehot, sum_onehot, dense_fold xr WF W0 B0 hx hWF hW0]

end Cert.BucketNet

end
-- ==== Proof.KernelHost.lean ====
/-
  What the kernel's region is handed, as functions of the arguments.

  Before the region the program turns each row's label into eight weights: the label clamped to [0, 7], compared with
  each bucket number, the equality bit read as a number.  For a label that already names a bucket the clamp changes nothing
  and the weights are the indicator of the label's bucket.  It also adds the factor table to the first layer's weights,
  once per bucket: the table is given two unit axes, repeated along the bucket axis and flattened, so that row 32·c + j of
  the repetition is row j of the table.  The changes of float format on the three weight arrays are the identity on exact
  values.
-/
import proofs.«430224_j24721831756095_3_alg».proof.Proof.Gen.KernelIdeal.Frame
import proofs.«430224_j24721831756095_3_alg».proof.Proof.BucketNet
import Idealize.ShloMosaic.Lib.Pipeline.Value
import Idealize.ShloMosaic.Lib.StableHlo.Run
import Idealize.ShloMosaic.Lib.StableHlo.Predicate

noncomputable section

open scoped BigOperators

namespace Cert.KernelIdeal.Host

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The factor table given two unit axes, repeated eight times along the first of them, and flattened back to two axes,
    read at (n, k): row n of the 256 is place (n / 32, n % 32, 0) of the 8 × 32 × 1, whose entry is row n % 32 of the table. -/
theorem tile_read (h₁ : S32x1024.ShapeCasts S1x32x1x1024)
    (h₂ : S1x32x1x1024.BroadcastsInDim S8x32x1x1024 (![0, 1, 2, 3] : Fin 4 → Fin S8x32x1x1024.rank))
    (h₃ : S8x32x1x1024.ShapeCasts S256x1024) (WF : S32x1024.Idx → EReal) (n : Fin 256) (k : Fin 1024) :
    shapeCast S256x1024 (broadcastInDim S8x32x1x1024 ![0, 1, 2, 3] h₂ (shapeCast S1x32x1x1024 WF h₁)) h₃ (ix2 n k)
      = WF (ix2 (⟨n.val % 32, Nat.mod_lt _ (by decide)⟩ : Fin 32) k) := by
  have hn := n.isLt
  refine (shapeCast_apply _ h₃ (ix2 n k)
    (ix4 (⟨n.val / 32, by omega⟩ : Fin 8) (⟨n.val % 32, Nat.mod_lt _ (by decide)⟩ : Fin 32) (0 : Fin 1) k) ?_).trans ?_
  · rw [Shape.rowMajor_val_four, Shape.rowMajor_val_two]
    show ((n.val / 32 * 32 + n.val % 32) * 1 + 0) * 1024 + k.val = n.val * 1024 + k.val
    omega
  refine (broadcastInDim_apply _ h₂ _ _
    (ix4 (0 : Fin 1) (⟨n.val % 32, Nat.mod_lt _ (by decide)⟩ : Fin 32) (0 : Fin 1) k) ?_).trans ?_
  · intro a
    match a with
    | ⟨0, _⟩ => rfl
    | ⟨1, _⟩ => rfl
    | ⟨2, _⟩ => rfl
    | ⟨3, _⟩ => rfl
  refine shapeCast_apply _ h₁ _ (ix2 (⟨n.val % 32, Nat.mod_lt _ (by decide)⟩ : Fin 32) k) ?_
  rw [Shape.rowMajor_val_four, Shape.rowMajor_val_two]
  show (n.val % 32) * 1024 + k.val = ((0 * 32 + n.val % 32) * 1 + 0) * 1024 + k.val
  omega

/-- The operations that build the first layer's weights, over any two tables: the flattened repetition added entrywise
    (the change of format after it is the identity on exact values) is the factor table joined to the weights. -/
theorem joined_read (h₁ : S32x1024.ShapeCasts S1x32x1x1024)
    (h₂ : S1x32x1x1024.BroadcastsInDim S8x32x1x1024 (![0, 1, 2, 3] : Fin 4 → Fin S8x32x1x1024.rank))
    (h₃ : S8x32x1x1024.ShapeCasts S256x1024) (hb : FTy.bits .bf16 < FTy.bits .f32)
    (W0 : S256x1024.Idx → EReal) (WF : S32x1024.Idx → EReal) :
    (truncf (F := Ideal) .bf16 (addf (F := Ideal) (φ := .f32) W0
        (shapeCast S256x1024 (broadcastInDim S8x32x1x1024 ![0, 1, 2, 3] h₂ (shapeCast S1x32x1x1024 WF h₁)) h₃)) hb
      : S256x1024.Idx → EReal)
      = Cert.BucketNet.joined W0 WF := by
  funext i
  obtain ⟨n, k, rfl⟩ : ∃ (n : Fin 256) (k : Fin 1024), i = ix2 n k := ⟨i 0, i 1, eq_ix2 i⟩
  show W0 (ix2 n k)
      + shapeCast S256x1024 (broadcastInDim S8x32x1x1024 ![0, 1, 2, 3] h₂ (shapeCast S1x32x1x1024 WF h₁)) h₃ (ix2 n k)
    = W0 (ix2 n k) + Cert.BucketNet.tile WF (ix2 n k)
  rw [tile_read]
  rfl

/-- A label below 8, clamped to [0, 7] as signed words, is itself. -/
theorem clamp_label (w : BitVec 32) (hw : w.toNat < 8) : IntOp.minsi 7#32 (IntOp.maxsi 0#32 w) = w := by
  have hti : w.toInt = w.toNat := StableHlo.Predicate.toInt_eq_toNat_of_lt (by omega)
  have h0 : (0#32 : BitVec 32).toInt = 0 := by decide
  have h7 : (7#32 : BitVec 32).toInt = 7 := by decide
  have hmax : IntOp.maxsi 0#32 w = w := by
    unfold IntOp.maxsi
    rw [if_neg]
    simp only [BitVec.slt, hti, h0, decide_eq_true_eq]
    omega
  rw [hmax]
  unfold IntOp.minsi
  rw [if_neg]
  simp only [BitVec.slt, hti, h7, decide_eq_true_eq]
  omega

/-- The equality bit of a label below 8 against the word of a bucket number, read as a number: the indicator of the
    label's bucket. -/
theorem eq_bit_onehot (w : BitVec 32) (hw : w.toNat < 8) (c' : Fin 8) :
    (((IntOp.cmpi .eq w (BitVec.ofNat 32 c'.val)).toNat : ℝ) : EReal)
      = Cert.BucketNet.onehot (Cert.BucketNet.bucket w) c' := by
  have hc' := c'.isLt
  unfold Cert.BucketNet.onehot
  by_cases hc : c' = Cert.BucketNet.bucket w
  · rw [if_pos hc]
    have hv : c'.val = w.toNat := by
      rw [hc]; show w.toNat % 8 = w.toNat; omega
    have hw' : w = BitVec.ofNat 32 c'.val := by
      apply BitVec.eq_of_toNat_eq
      rw [BitVec.toNat_ofNat, hv]
      omega
    rw [StableHlo.Predicate.cmpi_eq_iff.mpr hw']
    simp
  · rw [if_neg hc]
    have hne : ¬ w = BitVec.ofNat 32 c'.val := by
      intro hw'
      apply hc
      apply Fin.ext
      show c'.val = w.toNat % 8
      rw [hw', BitVec.toNat_ofNat]
      omega
    rw [eq_zero_of_ne_one (mt StableHlo.Predicate.cmpi_eq_iff.mp hne)]
    simp

/-- The operations that build the eight weights of a row, over any label array, read at (b, c'): the label is laid
    along the row, the bucket numbers 0 … 7 along the columns, and the equality bit of the clamped label against the
    column's number is turned into a number. -/
theorem onehot_read (h₀ : S_.BroadcastsInDim S65536 (![] : Fin 0 → Fin S65536.rank))
    (h₁ : S65536.BroadcastsInDim S65536x1 (![0] : Fin 1 → Fin S65536x1.rank))
    (h₂ : S65536x1.BroadcastsInDim S65536x8 (![0, 1] : Fin 2 → Fin S65536x8.rank))
    (h₃ : S1x8.BroadcastsInDim S65536x8 (![0, 1] : Fin 2 → Fin S65536x8.rank))
    (ls : IVec S65536 32) (b : Fin 65536) (c' : Fin 8) (h : (ls (ix1 b)).toNat < 8) :
    (uitofp (F := Ideal) .f32
        (cmpi .eq
          (broadcastInDim S65536x8 ![0, 1] h₂ (broadcastInDim S65536x1 ![0] h₁
            (minsi (broadcastInDim S65536 ![] h₀ (constantI S_ 32 7#32))
              (maxsi (broadcastInDim S65536 ![] h₀ (constantI S_ 32 0#32)) ls))))
          (broadcastInDim S65536x8 ![0, 1] h₃ (iotaInDim S1x8 32 1)))
      : S65536x8.Idx → EReal) (ix2 b c')
      = Cert.BucketNet.onehot (Cert.BucketNet.bucket (ls (ix1 b))) c' := by
  have hrow : ∀ v : IVec S65536 32,
      broadcastInDim S65536x8 ![0, 1] h₂ (broadcastInDim S65536x1 ![0] h₁ v) (ix2 b c') = v (ix1 b) := by
    intro v
    refine (broadcastInDim_apply _ h₂ _ (ix2 b c') (ix2 b (0 : Fin 1)) ?_).trans ?_
    · intro a
      match a with
      | ⟨0, _⟩ => rfl
      | ⟨1, _⟩ => rfl
    refine broadcastInDim_apply _ h₁ _ _ (ix1 b) ?_
    intro a
    match a with
    | ⟨0, _⟩ => rfl
  have hcol : broadcastInDim S65536x8 ![0, 1] h₃ (iotaInDim S1x8 32 1) (ix2 b c') = BitVec.ofNat 32 c'.val := by
    refine (broadcastInDim_apply _ h₃ _ (ix2 b c') (ix2 (0 : Fin 1) c') ?_).trans rfl
    intro a
    match a with
    | ⟨0, _⟩ => rfl
    | ⟨1, _⟩ => rfl
  show (((IntOp.cmpi .eq
      (broadcastInDim S65536x8 ![0, 1] h₂ (broadcastInDim S65536x1 ![0] h₁
        (minsi (broadcastInDim S65536 ![] h₀ (constantI S_ 32 7#32))
          (maxsi (broadcastInDim S65536 ![] h₀ (constantI S_ 32 0#32)) ls))) (ix2 b c'))
      (broadcastInDim S65536x8 ![0, 1] h₃ (iotaInDim S1x8 32 1) (ix2 b c'))).toNat : ℝ) : EReal) = _
  rw [hrow, hcol]
  show (((IntOp.cmpi .eq (IntOp.minsi 7#32 (IntOp.maxsi 0#32 (ls (ix1 b)))) (BitVec.ofNat 32 c'.val)).toNat : ℝ) : EReal) = _
  rw [clamp_label _ h]
  exact eq_bit_onehot _ h c'

/-- The weight array the region is handed for the eight buckets: 1 at the row's label, 0 elsewhere, when the label is
    one of the eight buckets (the clamp to [0, 7] then leaves it as it is). -/
theorem V_v1_apply (c : Dev nD) (b : Fin 65536) (c' : Fin 8)
    (h : ((m ((c.tc : Thread nD τ).loc main_arg1) : IVec S65536 32) (ix1 b)).toNat < 8) :
    (V m c main_v1 : S65536x8.Idx → EReal) (ix2 b c')
      = Cert.BucketNet.onehot (Cert.BucketNet.bucket ((m ((c.tc : Thread nD τ).loc main_arg1) : IVec S65536 32) (ix1 b))) c' := by
  have e : (V m c main_v1 : S65536x8.Idx → EReal)
      = uitofp (F := Ideal) .f32
          (cmpi .eq
            (broadcastInDim S65536x8 ![0, 1] bcast_S65536x1_S65536x8_0_1 (broadcastInDim S65536x1 ![0] bcast_S65536_S65536x1_0
              (minsi (broadcastInDim S65536 ![] bcast_S_S65536 (constantI S_ 32 7#32))
                (maxsi (broadcastInDim S65536 ![] bcast_S_S65536 (constantI S_ 32 0#32))
                  (m ((c.tc : Thread nD τ).loc main_arg1) : IVec S65536 32)))))
            (broadcastInDim S65536x8 ![0, 1] bcast_S1x8_S65536x8_0_1 (iotaInDim S1x8 32 1))) := by
    dsimp only [Gen.V, Gen.V0]
    simp only [Gen.hostOps0, Gen.hostOps0_1, Gen.hostOps0_2, Gen.hostOps0_3, List.flatten_cons, List.flatten_nil,
      List.append_nil, List.cons_append, List.nil_append]
    after_results
    rfl
  rw [e]
  exact onehot_read _ _ _ _ _ b c' h

/-- The first layer's weights as the region finds them: the factor table added to every bucket's rows. -/
theorem V_v6_eq (c : Dev nD) :
    (V m c main_v6 : S256x1024.Idx → EReal)
      = Cert.BucketNet.joined (m ((c.tc : Thread nD τ).loc main_arg3)) (m ((c.tc : Thread nD τ).loc main_arg2)) := by
  have e : (V m c main_v6 : S256x1024.Idx → EReal)
      = truncf (F := Ideal) .bf16 (addf (F := Ideal) (φ := .f32) (m ((c.tc : Thread nD τ).loc main_arg3) : S256x1024.Idx → EReal)
          (shapeCast S256x1024 (broadcastInDim S8x32x1x1024 ![0, 1, 2, 3] bcast_S1x32x1x1024_S8x32x1x1024_0_1_2_3
            (shapeCast S1x32x1x1024 (m ((c.tc : Thread nD τ).loc main_arg2) : S32x1024.Idx → EReal)
              shapeCasts_S32x1024_S1x32x1x1024)) shapeCasts_S8x32x1x1024_S256x1024)) bitsLt_bf16_f32 := by
    dsimp only [Gen.V, Gen.V0]
    simp only [Gen.hostOps0, Gen.hostOps0_1, Gen.hostOps0_2, Gen.hostOps0_3, List.flatten_cons, List.flatten_nil,
      List.append_nil, List.cons_append, List.nil_append]
    after_results
    rfl
  exact e.trans (joined_read _ _ _ _ _ _)

/-- The second layer's weights as the region finds them: the argument (the change of format is the identity). -/
theorem V_v7_eq (c : Dev nD) :
    (V m c main_v7 : S256x32.Idx → EReal) = (m ((c.tc : Thread nD τ).loc main_arg5) : S256x32.Idx → EReal) := by
  dsimp only [Gen.V, Gen.V0]
  simp only [Gen.hostOps0, Gen.hostOps0_1, Gen.hostOps0_2, Gen.hostOps0_3, List.flatten_cons, List.flatten_nil,
    List.append_nil, List.cons_append, List.nil_append]
  after_results
  exact funext fun i => rfl

/-- The last layer's weights as the region finds them: the argument. -/
theorem V_v8_eq (c : Dev nD) :
    (V m c main_v8 : S8x32.Idx → EReal) = (m ((c.tc : Thread nD τ).loc main_arg7) : S8x32.Idx → EReal) := by
  dsimp only [Gen.V, Gen.V0]
  simp only [Gen.hostOps0, Gen.hostOps0_1, Gen.hostOps0_2, Gen.hostOps0_3, List.flatten_cons, List.flatten_nil,
    List.append_nil, List.cons_append, List.nil_append]
  after_results
  exact funext fun i => rfl

end Cert.KernelIdeal.Host

end
-- ==== Proof.LibPlainDot.lean ====
/-
  The plain matrix product, rows times contraction by contraction times columns, read at an entry.

  For the dimension numbers "contract the left operand's axis 1 with the right operand's axis 0, no batch axis", the
  product of an M-by-K and a K-by-N matrix has at entry (p, q) the sum over k of left (p, k) times right (k, q).  At the
  exact values this holds of the host's product and of a kernel's product accumulated into a zero splat alike, on all
  extended reals, because only 0 + x = x is used.
-/
import Idealize.ShloMosaic.Lib.ValueIdx
import Idealize.ShloMosaic.Lib.KernelVsHost
import Idealize.ShloMosaic.PureOps.Ideal.Laws

noncomputable section

namespace Idealize.ShloMosaic.PlainDot

open Idealize.ShloMosaic.ValueIdx

variable {M K N : Nat} {φ₁ φ₂ : FTy}

/-- The left operand's index at output entry j and contraction step k: row of j, column k. -/
theorem lhsIdx_plain (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single rfl j _).trans hk

/-- The right operand's index at output entry j and contraction step k: row k, column of j. -/
theorem rhsIdx_plain (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ => rfl

/-- The host's plain product at an entry is the sum over the contraction of left (row, k) times right (k, column). -/
theorem dotGeneral_plain_apply (prec : Option ContractPrecision) (l : FVec Ideal ⟨2, ![M, K]⟩ φ₁)
    (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [lhsIdx_plain, rhsIdx_plain]
  rfl

/-- A kernel's plain product accumulated into a zero splat, at an entry: the same sum. -/
theorem matmul_zero_plain_apply (prec : Option ContractPrecision) (l : FVec Ideal ⟨2, ![M, K]⟩ φ₁)
    (r : FVec Ideal ⟨2, ![K, N]⟩ φ₂) (j : (⟨2, ![M, N]⟩ : Shape).Idx) :
    matmul (DotDims.plain M K N) prec l r (constant ⟨2, ![M, N]⟩ .f32 0x00000000#32) j
      = ∑ k : Fin K, l (ix2 (j 0) k) * r (ix2 k (j 1)) := by
  rw [matmul_zero_eq_dotGeneral, dotGeneral_plain_apply]

end Idealize.ShloMosaic.PlainDot
-- ==== Proof.KernelBlock.lean ====
/-
  The kernel body's one store, read at a lane.

  The body computes, for a block of 2048 rows, three bucketed dense layers in the selecting form: every bucket's units
  are computed, the row's eight bucket weights multiply the eight buckets' values, and the products are added up from a
  zero start value (seven terms, then the eighth), clamped to [0, 1] between layers; the last layer's eight outputs are
  weighted and summed along the row, and the column of sums is laid out as one row of 2048 lanes.

  Each step is read at one index: a product with a transposed table is an inner product of two rows; a bias row repeated
  down the block reads its own entry; a column slice repeated along a row reads the row's weight; a 32-column slice reads
  the bucket's units.  Chained from the store inwards these give, at lane r, the selecting form of row r.
-/
import proofs.«430224_j24721831756095_3_alg».proof.Proof.Gen.KernelIdeal.Frame
import proofs.«430224_j24721831756095_3_alg».proof.Proof.BucketNet
import proofs.«430224_j24721831756095_3_alg».proof.Proof.LibPlainDot
import Idealize.ShloMosaic.Lib.Pipeline.Value
import Idealize.ShloMosaic.Lib.ValueLayout

noncomputable section

open scoped BigOperators

namespace Cert.KernelIdeal.Block

open Idealize.ShloMosaic Idealize.ShloMosaic.ValueIdx Cert.KernelIdeal Cert.KernelIdeal.Gen

/-- Both offsets of a whole rank-2 rectangle are zero. -/
theorem offs2 : (![0, 0] : Fin 2 → Nat) = fun _ => 0 := funext fun a => by fin_cases a <;> rfl
/-- The offset of a whole rank-1 rectangle is zero. -/
theorem offs1 : (![0] : Fin 1 → Nat) = fun _ => 0 := funext fun a => by fin_cases a <;> rfl

/-- A product of an M-by-K block with the transpose of an N-by-K table, accumulated into a zero splat, has at entry
    (p, n) the inner product of row p of the block with row n of the table. -/
theorem matmul_transpose_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (W : FVec Ideal ⟨2, ![N, K]⟩ φ₂)
    (ht : (⟨2, ![N, K]⟩ : Shape).Transposes [1, 0] ⟨2, ![K, N]⟩) (p : Fin M) (n : Fin N) :
    matmul D prec l (transpose ⟨2, ![K, N]⟩ [1, 0] W ht) (constant ⟨2, ![M, N]⟩ .f32 0x00000000#32) (ix2 p n)
      = ∑ k : Fin K, l (ix2 p k) * W (ix2 n k) := by
  subst hD
  rw [PlainDot.matmul_zero_plain_apply]
  refine Finset.sum_congr rfl fun k _ => ?_
  exact congrArg (fun v => l (ix2 p k) * v) (transpose_ix2_apply W ht k n)

/-- A bias vector laid out as one row and repeated down the rows reads, at (p, n), its entry n. -/
theorem bias_apply {M N : Nat} (B : (⟨1, ![N]⟩ : Shape).Idx → EReal) (hc : (⟨1, ![N]⟩ : Shape).ShapeCasts ⟨2, ![1, N]⟩)
    (hb : (⟨2, ![1, N]⟩ : Shape).Broadcasts ⟨2, ![M, N]⟩) (p : Fin M) (n : Fin N) :
    broadcastTo ⟨2, ![M, N]⟩ (shapeCast ⟨2, ![1, N]⟩ B hc) hb (ix2 p n) = B (ix1 n) :=
  (broadcastTo_1b_ab_apply _ hb p n).trans (shapeCast_a_1a_apply B hc 0 n)

/-- One term of a bucketed layer's weighted sum, at row p and place j within a bucket: column c of the weight block,
    repeated along the row, times the layer's columns 32·c … 32·c + 31. -/
theorem term_apply (oh : FVec Ideal S2048x8 .f32) (y : FVec Ideal S2048x256 .f32) (c : Fin 8) (o o' : Nat)
    (ho : o = c.val) (ho' : o' = 32 * c.val) (hs : S2048x8.Slices ![0, o] S2048x1) (hs' : S2048x256.Slices ![0, o'] S2048x32)
    (hb : S2048x1.Broadcasts S2048x32) (p : Fin 2048) (j : Fin 32) :
    mulf (broadcastTo S2048x32 (extractStridedSlice S2048x1 ![0, o] oh hs) hb) (extractStridedSlice S2048x32 ![0, o'] y hs') (ix2 p j)
      = oh (ix2 p c) * y (ix2 p (Cert.BucketNet.unit c j)) := by
  have e1 : broadcastTo S2048x32 (extractStridedSlice S2048x1 ![0, o] oh hs) hb (ix2 p j) = oh (ix2 p c) := by
    refine (broadcastTo_apply _ hb (ix2 p j) (ix2 p (0 : Fin 1)) fun a => ?_).trans
      (slice2_axis1_apply o oh hs p (0 : Fin 1) c (by rw [ho]; rfl))
    match a with
    | ⟨0, _⟩ => rfl
    | ⟨1, _⟩ => rfl
  have e2 : extractStridedSlice S2048x32 ![0, o'] y hs' (ix2 p j) = y (ix2 p (Cert.BucketNet.unit c j)) :=
    slice2_axis1_apply o' y hs' p j (Cert.BucketNet.unit c j) (by rw [ho']; rfl)
  rw [mulf_apply, e1, e2]

/-- Column c of the weight block read as a one-column block. -/
theorem col_apply (oh : FVec Ideal S2048x8 .f32) (c : Fin 8) (o : Nat) (ho : o = c.val)
    (hs : S2048x8.Slices ![0, o] S2048x1) (p : Fin 2048) :
    extractStridedSlice S2048x1 ![0, o] oh hs (ix2 p (0 : Fin 1)) = oh (ix2 p c) :=
  slice2_axis1_apply o oh hs p (0 : Fin 1) c (by rw [ho]; rfl)

/-- The bucket's own columns of a layer read as a 32-column block. -/
theorem cols_apply (y : FVec Ideal S2048x256 .f32) (c : Fin 8) (o' : Nat) (ho' : o' = 32 * c.val)
    (hs' : S2048x256.Slices ![0, o'] S2048x32) (p : Fin 2048) (j : Fin 32) :
    extractStridedSlice S2048x32 ![0, o'] y hs' (ix2 p j) = y (ix2 p (Cert.BucketNet.unit c j)) :=
  slice2_axis1_apply o' y hs' p j (Cert.BucketNet.unit c j) (by rw [ho']; rfl)

/-! ## The payloads at an index -/

section Payloads

/-- The weight block passes through a shape cast to its own shape. -/
theorem pay3_eq (v10 : Vec Ideal S2048x8 .f32) : k0_pay3 (F := Ideal) v10 = v10 :=
  shapeCast_self v10 _

/-- A dense layer's product and bias, at row p and unit n. -/
theorem pay2_apply (v0 : Vec Ideal S2048x1024 .f32) (v2 : Vec Ideal S256x1024 .bf16) (v6 : Vec Ideal S256 .f32)
    (p : Fin 2048) (n : Fin 256) :
    k0_pay2 (F := Ideal) v0 v2 v6 (ix2 p n) = Cert.BucketNet.dense v2 v6 (fun k => v0 (ix2 p k)) n := by
  unfold k0_pay2 Cert.BucketNet.dense
  simp only [shapeCast_self]
  rw [addf_apply]
  refine congrArg₂ (· + ·) ?_ (bias_apply v6 _ _ p n)
  exact matmul_transpose_apply _ rfl none _ v2 _ p n

/-- The last bucket's column of the weight block. -/
theorem pay5_apply (v10 : Vec Ideal S2048x8 .f32) (p : Fin 2048) :
    k0_pay5 (F := Ideal) v10 (ix2 p (0 : Fin 1)) = v10 (ix2 p (7 : Fin 8)) := by
  unfold k0_pay5
  rw [pay3_eq]
  exact col_apply v10 7 7 rfl _ p

/-- The last bucket's columns of the first layer. -/
theorem pay6_apply (v0 : Vec Ideal S2048x1024 .f32) (v2 : Vec Ideal S256x1024 .bf16) (v6 : Vec Ideal S256 .f32)
    (p : Fin 2048) (j : Fin 32) :
    k0_pay6 (F := Ideal) v0 v2 v6 (ix2 p j) = k0_pay2 (F := Ideal) v0 v2 v6 (ix2 p (Cert.BucketNet.unit 7 j)) := by
  unfold k0_pay6
  exact cols_apply _ 7 224 rfl _ p j

/-- The last bucket's column of the weight block, second layer. -/
theorem pay9_apply (v11 : FVec Ideal S2048x8 .f32) (p : Fin 2048) :
    k0_pay9 (F := Ideal) v11 (ix2 p (0 : Fin 1)) = v11 (ix2 p (7 : Fin 8)) := by
  unfold k0_pay9
  exact col_apply v11 7 7 rfl _ p

end Payloads

section Payloads2

/-- The first layer's weighted sum without its last term: from the zero start value, buckets 0 to 6 in turn. -/
theorem pay4_apply (v0 : Vec Ideal S2048x1024 .f32) (v2 : Vec Ideal S256x1024 .bf16) (v6 : Vec Ideal S256 .f32)
    (v10 : Vec Ideal S2048x8 .f32) (p : Fin 2048) (j : Fin 32) :
    k0_pay4 (F := Ideal) v0 v2 v6 v10 (ix2 p j)
      = Ideal.ofBits .f32 0x00000000#32
        + v10 (ix2 p 0) * k0_pay2 (F := Ideal) v0 v2 v6 (ix2 p (Cert.BucketNet.unit 0 j))
        + v10 (ix2 p 1) * k0_pay2 (F := Ideal) v0 v2 v6 (ix2 p (Cert.BucketNet.unit 1 j))
        + v10 (ix2 p 2) * k0_pay2 (F := Ideal) v0 v2 v6 (ix2 p (Cert.BucketNet.unit 2 j))
        + v10 (ix2 p 3) * k0_pay2 (F := Ideal) v0 v2 v6 (ix2 p (Cert.BucketNet.unit 3 j))
        + v10 (ix2 p 4) * k0_pay2 (F := Ideal) v0 v2 v6 (ix2 p (Cert.BucketNet.unit 4 j))
        + v10 (ix2 p 5) * k0_pay2 (F := Ideal) v0 v2 v6 (ix2 p (Cert.BucketNet.unit 5 j))
        + v10 (ix2 p 6) * k0_pay2 (F := Ideal) v0 v2 v6 (ix2 p (Cert.BucketNet.unit 6 j)) := by
  unfold k0_pay4
  simp only [pay3_eq, addf_apply]
  rw [term_apply v10 _ 0 0 0 rfl rfl, term_apply v10 _ 1 1 32 rfl rfl, term_apply v10 _ 2 2 64 rfl rfl,
    term_apply v10 _ 3 3 96 rfl rfl, term_apply v10 _ 4 4 128 rfl rfl, term_apply v10 _ 5 5 160 rfl rfl,
    term_apply v10 _ 6 6 192 rfl rfl]
  rfl

/-- A layer's weighted sum closed with its last term and clamped, then the next dense layer, at row p and unit n. -/
theorem pay7_apply (v47 : FVec Ideal S2048x32 .f32) (v48 : FVec Ideal S2048x1 .f32) (v49 : FVec Ideal S2048x32 .f32)
    (v58 : Vec Ideal S256x32 .bf16) (v62 : Vec Ideal S256 .f32) (p : Fin 2048) (n : Fin 256) :
    k0_pay7 (F := Ideal) v47 v48 v49 v58 v62 (ix2 p n)
      = Cert.BucketNet.dense v58 v62
          (fun j => Cert.BucketNet.clip01 (v47 (ix2 p j) + v48 (ix2 p (0 : Fin 1)) * v49 (ix2 p j))) n := by
  unfold k0_pay7 Cert.BucketNet.dense
  simp only [shapeCast_self]
  rw [addf_apply]
  refine congrArg₂ (· + ·) ?_ (bias_apply v62 _ _ p n)
  refine (matmul_transpose_apply _ rfl none _ v58 _ p n).trans ?_
  refine Finset.sum_congr rfl fun j _ => ?_
  refine congrArg (· * v58 (ix2 n j)) ?_
  show min _ (max _ (v47 (ix2 p j) + broadcastTo S2048x32 v48 _ (ix2 p j) * v49 (ix2 p j))) = _
  rw [broadcastTo_apply v48 _ (ix2 p j) (ix2 p (0 : Fin 1)) fun a => by
    match a with
    | ⟨0, _⟩ => rfl
    | ⟨1, _⟩ => rfl]
  rfl

end Payloads2

section Payloads3

/-- The second layer's weighted sum without its last term: from the zero start value, buckets 0 to 6 in turn. -/
theorem pay8_apply (v11 : FVec Ideal S2048x8 .f32) (v47 : FVec Ideal S2048x32 .f32) (v48 : FVec Ideal S2048x1 .f32)
    (v49 : FVec Ideal S2048x32 .f32) (v58 : Vec Ideal S256x32 .bf16) (v62 : Vec Ideal S256 .f32) (p : Fin 2048) (j : Fin 32) :
    k0_pay8 (F := Ideal) v11 v47 v48 v49 v58 v62 (ix2 p j)
      = Ideal.ofBits .f32 0x00000000#32
        + v11 (ix2 p 0) * k0_pay7 (F := Ideal) v47 v48 v49 v58 v62 (ix2 p (Cert.BucketNet.unit 0 j))
        + v11 (ix2 p 1) * k0_pay7 (F := Ideal) v47 v48 v49 v58 v62 (ix2 p (Cert.BucketNet.unit 1 j))
        + v11 (ix2 p 2) * k0_pay7 (F := Ideal) v47 v48 v49 v58 v62 (ix2 p (Cert.BucketNet.unit 2 j))
        + v11 (ix2 p 3) * k0_pay7 (F := Ideal) v47 v48 v49 v58 v62 (ix2 p (Cert.BucketNet.unit 3 j))
        + v11 (ix2 p 4) * k0_pay7 (F := Ideal) v47 v48 v49 v58 v62 (ix2 p (Cert.BucketNet.unit 4 j))
        + v11 (ix2 p 5) * k0_pay7 (F := Ideal) v47 v48 v49 v58 v62 (ix2 p (Cert.BucketNet.unit 5 j))
        + v11 (ix2 p 6) * k0_pay7 (F := Ideal) v47 v48 v49 v58 v62 (ix2 p (Cert.BucketNet.unit 6 j)) := by
  unfold k0_pay8
  simp only [addf_apply]
  rw [term_apply v11 _ 0 0 0 rfl rfl, term_apply v11 _ 1 1 32 rfl rfl, term_apply v11 _ 2 2 64 rfl rfl,
    term_apply v11 _ 3 3 96 rfl rfl, term_apply v11 _ 4 4 128 rfl rfl, term_apply v11 _ 5 5 160 rfl rfl,
    term_apply v11 _ 6 6 192 rfl rfl]
  rfl

/-- A vector of sums laid out as a column and then turned into a row reads, at lane p, its entry p. -/
theorem row_of_col_apply (v : (⟨1, ![2048]⟩ : Shape).Idx → EReal) (hc : S2048.ShapeCasts S2048x1)
    (ht : S2048x1.Transposes [1, 0] S1x2048) (p : Fin 2048) :
    transpose S1x2048 [1, 0] (shapeCast S2048x1 v hc) ht (ix2 (0 : Fin 1) p) = v (ix1 p) := by
  refine (transpose_ix2_apply _ ht (0 : Fin 1) p).trans ?_
  refine shapeCast_apply v hc (ix2 p (0 : Fin 1)) (ix1 p) ?_
  rw [Shape.rowMajor_val_one, Shape.rowMajor_val_two]
  show p.val = p.val * 1 + 0
  omega

/-- The store's value at lane p: the second layer's sum closed and clamped, the last dense layer, and the eight outputs
    weighted and added up. -/
theorem pay1_apply (v11 : FVec Ideal S2048x8 .f32) (v65 : FVec Ideal S2048x256 .f32) (v101 : FVec Ideal S2048x32 .f32)
    (v102 : FVec Ideal S2048x1 .f32) (v112 : Vec Ideal S8x32 .bf16) (v116 : Vec Ideal S8 .f32) (p : Fin 2048) :
    k0_pay1 (F := Ideal) v11 v65 v101 v102 v112 v116 (ix2 (0 : Fin 1) p)
      = ∑ c : Fin 8, v11 (ix2 p c) * Cert.BucketNet.dense v112 v116
          (fun j => Cert.BucketNet.clip01
            (v101 (ix2 p j) + v102 (ix2 p (0 : Fin 1)) * v65 (ix2 p (Cert.BucketNet.unit 7 j)))) c := by
  unfold k0_pay1
  simp only [shapeCast_self]
  refine (row_of_col_apply _ _ _ p).trans ?_
  refine (Ideal.multiReduction_add_single _ _ reduces_S2048x8_S2048 _ _ (ix1 p)).trans ?_
  show ∑ c : Fin 8, _ = _
  refine Finset.sum_congr rfl fun c _ => ?_
  have hl : reduces_S2048x8_S2048.lift (ix1 p) c = ix2 p c := by
    funext a
    match a with
    | ⟨0, _⟩ => exact Fin.ext rfl
    | ⟨1, _⟩ => exact Fin.ext rfl
  rw [hl, mulf_apply, addf_apply]
  refine congrArg (v11 (ix2 p c) * ·) ?_
  unfold Cert.BucketNet.dense
  refine congrArg₂ (· + ·) ?_ (bias_apply v116 _ _ p c)
  refine (matmul_transpose_apply _ rfl none _ v112 _ p c).trans ?_
  refine Finset.sum_congr rfl fun j _ => ?_
  refine congrArg (· * v112 (ix2 c j)) ?_
  show min _ (max _ (v101 (ix2 p j) + broadcastTo S2048x32 v102 _ (ix2 p j) * extractStridedSlice S2048x32 ![0, 224] v65 _ (ix2 p j))) = _
  rw [broadcastTo_apply v102 _ (ix2 p j) (ix2 p (0 : Fin 1)) fun a => by
    match a with
    | ⟨0, _⟩ => rfl
    | ⟨1, _⟩ => rfl, cols_apply v65 7 224 rfl _ p j]
  rfl

end Payloads3

/-- What the body leaves in the output block, at lane r of its one row: the selecting form of row r of the input block. -/
theorem out0_8_apply (x0 : Vec Ideal S2048x1024 .f32) (x1 : Vec Ideal S2048x8 .f32) (x2 : Vec Ideal S256x1024 .bf16)
    (x3 : Vec Ideal S256 .f32) (x4 : Vec Ideal S256x32 .bf16) (x5 : Vec Ideal S256 .f32) (x6 : Vec Ideal S8x32 .bf16)
    (x7 : Vec Ideal S8 .f32) (r : Fin 2048) :
    out0_8 (F := Ideal) x0 x1 x2 x3 x4 x5 x6 x7 (ix2 (0 : Fin 1) r)
      = Cert.BucketNet.rowSel (fun k => x0 (ix2 r k)) (fun c => x1 (ix2 r c)) x2 x3 x4 x5 x6 x7 := by
  unfold out0_8
  rw [View.canon_unit_zero offs2]
  simp only [View.ld_unit_zero (S := S2048x1024) offs2, View.ld_unit_zero (S := S2048x8) offs2,
    View.ld_unit_zero (S := S256x1024) offs2, View.ld_unit_zero (S := S256) offs1,
    View.ld_unit_zero (S := S256x32) offs2, View.ld_unit_zero (S := S8x32) offs2, View.ld_unit_zero (S := S8) offs1]
  rw [pay1_apply]
  simp only [pay8_apply, pay9_apply, pay7_apply, pay4_apply, pay5_apply, pay6_apply, pay2_apply, pay3_eq]
  rfl

end Cert.KernelIdeal.Block

end
-- ==== Proof.KernelArray.lean ====
/-
  From blocks to the whole array.

  The region runs over 32 points.  Point t stages rows 2048 t … 2048 t + 2047 of the input and of the indicator array,
  every weight and bias table whole, and writes back columns 2048 t … 2048 t + 2047 of a [1, 65536] result.  Lane r of
  the block a point writes is the selecting form of row r of its two row blocks; read through the blocks' places in their
  arrays this is column 2048 t + r of one array G, whose column b is the selecting form of row b of the input.  The 32
  blocks cover every column (column b lies in block b / 2048), so the result ends holding G.  The one operation after
  the region reshapes [1, 65536] to [65536, 1]: entry (b, 0) has the row-major position of column b.
-/
import proofs.«430224_j24721831756095_3_alg».proof.Proof.Gen.KernelIdeal.Frame
import proofs.«430224_j24721831756095_3_alg».proof.Proof.BucketNet
import proofs.«430224_j24721831756095_3_alg».proof.Proof.KernelBlock
import Idealize.ShloMosaic.Lib.Pipeline.Value
import Idealize.ShloMosaic.Lib.StableHlo.Run

noncomputable section

open scoped BigOperators

namespace Cert.KernelIdeal.Array

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-- The index maps over the grid: the row windows and the result window sit at block t, every table window at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = t.val :=
  (by decide +kernel : ∀ t : Fin grid0.N, _)

/-- The selecting form of a row is a function of its eight arguments. -/
theorem rowSel_congr {xr xr' : Fin 1024 → EReal} {oh oh' : Fin 8 → EReal}
    {W0 W0' : (⟨2, ![256, 1024]⟩ : Shape).Idx → EReal} {B0 B0' : (⟨1, ![256]⟩ : Shape).Idx → EReal}
    {W1 W1' : (⟨2, ![256, 32]⟩ : Shape).Idx → EReal} {B1 B1' : (⟨1, ![256]⟩ : Shape).Idx → EReal}
    {W2 W2' : (⟨2, ![8, 32]⟩ : Shape).Idx → EReal} {B2 B2' : (⟨1, ![8]⟩ : Shape).Idx → EReal}
    (hx : xr = xr') (ho : oh = oh') (h0 : W0 = W0') (hb0 : B0 = B0') (h1 : W1 = W1') (hb1 : B1 = B1')
    (h2 : W2 = W2') (hb2 : B2 = B2') :
    Cert.BucketNet.rowSel xr oh W0 B0 W1 B1 W2 B2 = Cert.BucketNet.rowSel xr' oh' W0' B0' W1' B1' W2' B2' := by
  subst hx ho h0 hb0 h1 hb1 h2 hb2; rfl

/-- The result array before the final reshape: column b is the selecting form of row b of the input, over the arrays as
    the region finds them. -/
abbrev G (c : Dev nD) : S1x65536.Idx → EReal := fun i =>
  Cert.BucketNet.rowSel (fun k => V m c main_arg0 (ix2 (i 1) k)) (fun c' => V m c main_v1 (ix2 (i 1) c'))
    (V m c main_v6) (V m c main_arg4) (V m c main_v7) (V m c main_arg6) (V m c main_v8) (V m c main_arg8)

/-- Lane y of the output block is the selecting form of row y of the two row blocks. -/
theorem out_row (x0 : Vec Ideal S2048x1024 .f32) (x1 : Vec Ideal S2048x8 .f32) (x2 : Vec Ideal S256x1024 .bf16)
    (x3 : Vec Ideal S256 .f32) (x4 : Vec Ideal S256x32 .bf16) (x5 : Vec Ideal S256 .f32) (x6 : Vec Ideal S8x32 .bf16)
    (x7 : Vec Ideal S8 .f32) (y : S1x2048.Idx) (r : Fin 2048) (hr : (y 1).val = r.val) :
    out0_8 (F := Ideal) x0 x1 x2 x3 x4 x5 x6 x7 y
      = Cert.BucketNet.rowSel (fun k => x0 (ix2 r k)) (fun c => x1 (ix2 r c)) x2 x3 x4 x5 x6 x7 := by
  obtain ⟨p, q, rfl⟩ : ∃ (p : Fin 1) (q : Fin 2048), y = ix2 p q := ⟨y 0, y 1, eq_ix2 y⟩
  obtain rfl : q = r := Fin.ext hr
  obtain rfl : p = 0 := Subsingleton.elim _ _
  exact Block.out0_8_apply x0 x1 x2 x3 x4 x5 x6 x7 q

/-- Entry (r, k) of the input's block at point t is entry (2048 t + r, k) of the input. -/
theorem iblk0_apply (c : Dev nD) (t : Fin cfg0.N) (r : Fin 2048) (k : Fin 1024) (i : S65536x1024.Idx)
    (h0 : (i 0).val = 2048 * t.val + r.val) (h1 : (i 1).val = k.val) :
    (iblk m c 0 t : Vec Ideal S2048x1024 .f32) (ix2 r k) = (V m c main_arg0 : S65536x1024.Idx → EReal) i := by
  obtain ⟨e00, e01, -⟩ := idx_facts t
  show V m c main_arg0 (((cfg0.win 0).blk t).view.emb (ix2 r k)) = V m c main_arg0 i
  refine congrArg (V m c main_arg0) ?_
  funext a; apply Fin.ext
  match a with
  | ⟨0, _⟩ => show win0_0.index t (0 : Fin 2) * 2048 + 1 * r.val = (i 0).val; omega
  | ⟨1, _⟩ => show win0_0.index t (1 : Fin 2) * 1024 + 1 * k.val = (i 1).val; omega

/-- Entry (r, k) of the indicator array's block at point t is entry (2048 t + r, k) of the array. -/
theorem iblk1_apply (c : Dev nD) (t : Fin cfg0.N) (r : Fin 2048) (k : Fin 8) (i : S65536x8.Idx)
    (h0 : (i 0).val = 2048 * t.val + r.val) (h1 : (i 1).val = k.val) :
    (iblk m c 1 t : Vec Ideal S2048x8 .f32) (ix2 r k) = (V m c main_v1 : S65536x8.Idx → EReal) i := by
  obtain ⟨-, -, e10, e11, -⟩ := idx_facts t
  show V m c main_v1 (((cfg0.win 1).blk t).view.emb (ix2 r k)) = V m c main_v1 i
  refine congrArg (V m c main_v1) ?_
  funext a; apply Fin.ext
  match a with
  | ⟨0, _⟩ => show win0_1.index t (0 : Fin 2) * 2048 + 1 * r.val = (i 0).val; omega
  | ⟨1, _⟩ => show win0_1.index t (1 : Fin 2) * 8 + 1 * k.val = (i 1).val; omega

/-- The first weight table's block is the whole table at every point: its block index is zero on each axis. -/
theorem iblk2_eq (c : Dev nD) (t : Fin cfg0.N) :
    (iblk m c 2 t : Vec Ideal S256x1024 .bf16) = (V m c main_v6 : S256x1024.Idx → EReal) := by
  obtain ⟨-, -, -, -, e0, e1, -⟩ := idx_facts t
  funext y
  show V m c main_v6 (((cfg0.win 2).blk t).view.emb y) = V m c main_v6 y
  refine congrArg (V m c main_v6) ?_
  funext a; apply Fin.ext
  match a with
  | ⟨0, _⟩ => show win0_2.index t (0 : Fin 2) * 256 + 1 * (y 0).val = (y 0).val; omega
  | ⟨1, _⟩ => show win0_2.index t (1 : Fin 2) * 1024 + 1 * (y 1).val = (y 1).val; omega

/-- The first bias table's block is the whole table. -/
theorem iblk3_eq (c : Dev nD) (t : Fin cfg0.N) :
    (iblk m c 3 t : Vec Ideal S256 .f32) = (V m c main_arg4 : S256.Idx → EReal) := by
  obtain ⟨-, -, -, -, -, -, e0, -⟩ := idx_facts t
  funext y
  show V m c main_arg4 (((cfg0.win 3).blk t).view.emb y) = V m c main_arg4 y
  refine congrArg (V m c main_arg4) ?_
  funext a; apply Fin.ext
  match a with
  | ⟨0, _⟩ => show win0_3.index t (0 : Fin 1) * 256 + 1 * (y 0).val = (y 0).val; omega

/-- The second weight table's block is the whole table. -/
theorem iblk4_eq (c : Dev nD) (t : Fin cfg0.N) :
    (iblk m c 4 t : Vec Ideal S256x32 .bf16) = (V m c main_v7 : S256x32.Idx → EReal) := by
  obtain ⟨-, -, -, -, -, -, -, e0, e1, -⟩ := idx_facts t
  funext y
  show V m c main_v7 (((cfg0.win 4).blk t).view.emb y) = V m c main_v7 y
  refine congrArg (V m c main_v7) ?_
  funext a; apply Fin.ext
  match a with
  | ⟨0, _⟩ => show win0_4.index t (0 : Fin 2) * 256 + 1 * (y 0).val = (y 0).val; omega
  | ⟨1, _⟩ => show win0_4.index t (1 : Fin 2) * 32 + 1 * (y 1).val = (y 1).val; omega

/-- The second bias table's block is the whole table. -/
theorem iblk5_eq (c : Dev nD) (t : Fin cfg0.N) :
    (iblk m c 5 t : Vec Ideal S256 .f32) = (V m c main_arg6 : S256.Idx → EReal) := by
  obtain ⟨-, -, -, -, -, -, -, -, -, e0, -⟩ := idx_facts t
  funext y
  show V m c main_arg6 (((cfg0.win 5).blk t).view.emb y) = V m c main_arg6 y
  refine congrArg (V m c main_arg6) ?_
  funext a; apply Fin.ext
  match a with
  | ⟨0, _⟩ => show win0_5.index t (0 : Fin 1) * 256 + 1 * (y 0).val = (y 0).val; omega

/-- The last weight table's block is the whole table. -/
theorem iblk6_eq (c : Dev nD) (t : Fin cfg0.N) :
    (iblk m c 6 t : Vec Ideal S8x32 .bf16) = (V m c main_v8 : S8x32.Idx → EReal) := by
  obtain ⟨-, -, -, -, -, -, -, -, -, -, e0, e1, -⟩ := idx_facts t
  funext y
  show V m c main_v8 (((cfg0.win 6).blk t).view.emb y) = V m c main_v8 y
  refine congrArg (V m c main_v8) ?_
  funext a; apply Fin.ext
  match a with
  | ⟨0, _⟩ => show win0_6.index t (0 : Fin 2) * 8 + 1 * (y 0).val = (y 0).val; omega
  | ⟨1, _⟩ => show win0_6.index t (1 : Fin 2) * 32 + 1 * (y 1).val = (y 1).val; omega

/-- The last bias table's block is the whole table. -/
theorem iblk7_eq (c : Dev nD) (t : Fin cfg0.N) :
    (iblk m c 7 t : Vec Ideal S8 .f32) = (V m c main_arg8 : S8.Idx → EReal) := by
  obtain ⟨-, -, -, -, -, -, -, -, -, -, -, -, e0, -⟩ := idx_facts t
  funext y
  show V m c main_arg8 (((cfg0.win 7).blk t).view.emb y) = V m c main_arg8 y
  refine congrArg (V m c main_arg8) ?_
  funext a; apply Fin.ext
  match a with
  | ⟨0, _⟩ => show win0_7.index t (0 : Fin 1) * 8 + 1 * (y 0).val = (y 0).val; omega

/-- What point t writes back is block t of the array G. -/
theorem flushed_eq (c : Dev nD) (t : Fin cfg0.N) :
    (dats m 0 c).flushed 8 t = ((cfg0.win 8).blk t).view.read (Elt Ideal) (G m c) := by
  show (cfg0.win 8).cut (grid0.coords t) ((dats m 0 c).after 8 t) = _
  rw [after0_8]
  obtain ⟨-, -, -, -, -, -, -, -, -, -, -, -, -, e80, e81⟩ := idx_facts t
  funext j
  have hj : (j 1).val < 2048 := (j 1).isLt
  refine (out_row (iblk m c 0 t) (iblk m c 1 t) (iblk m c 2 t) (iblk m c 3 t) (iblk m c 4 t) (iblk m c 5 t) (iblk m c 6 t)
    (iblk m c 7 t) ((cfg0.win 8).xinj (grid0.coords t) j) ⟨(j 1).val, hj⟩ rfl).trans ?_
  show _ = G m c (((cfg0.win 8).blk t).view.emb j)
  refine rowSel_congr (funext fun k => ?_) (funext fun k => ?_) (iblk2_eq m c t) (iblk3_eq m c t) (iblk4_eq m c t)
    (iblk5_eq m c t) (iblk6_eq m c t) (iblk7_eq m c t)
  · refine iblk0_apply m c t ⟨(j 1).val, hj⟩ k _ ?_ rfl
    show win0_8.index t (1 : Fin 2) * 2048 + 1 * (j 1).val = 2048 * t.val + (j 1).val
    omega
  · refine iblk1_apply m c t ⟨(j 1).val, hj⟩ k _ ?_ rfl
    show win0_8.index t (1 : Fin 2) * 2048 + 1 * (j 1).val = 2048 * t.val + (j 1).val
    omega

/-- A column index lies in point t's block iff each coordinate lies in the block's range on its axis. -/
theorem mem_blk (t : Fin cfg0.N) (i : S1x65536.Idx) :
    i ∈ ((cfg0.win 8).blk t).view.set ↔ ∀ a : Fin 2, win0_8.index t a * S1x2048.size a ≤ (i a).val
      ∧ (i a).val < win0_8.index t a * S1x2048.size a + S1x2048.size a := by
  show i ∈ ((View.whole main_v9).slice (win0_8.rect t)).set ↔ _
  rw [View.set_slice_whole, Rect.mem_set_unit]
  exact Iff.rfl

/-- Every column b of the result lies in the block of point b / 2048. -/
theorem cover (i : S1x65536.Idx) :
    ∃ t : Fin cfg0.N, (cfg0.win 8).flush t = true ∧ i ∈ ((cfg0.win 8).blk t).view.set := by
  have hi0 : (i 0).val < 1 := (i 0).isLt
  have hi1 : (i 1).val < 65536 := (i 1).isLt
  have hN : cfg0.N = 32 := N_0
  have ht : (i 1).val / 2048 < cfg0.N := by rw [hN]; omega
  obtain ⟨-, -, -, -, -, -, -, -, -, -, -, -, -, e80, e81⟩ := idx_facts ⟨(i 1).val / 2048, ht⟩
  refine ⟨⟨(i 1).val / 2048, ht⟩, flush0_8 _, ?_⟩
  rw [mem_blk]
  intro a
  match a with
  | ⟨0, _⟩ =>
    show win0_8.index ⟨(i 1).val / 2048, ht⟩ (0 : Fin 2) * 1 ≤ (i 0).val
      ∧ (i 0).val < win0_8.index ⟨(i 1).val / 2048, ht⟩ (0 : Fin 2) * 1 + 1
    omega
  | ⟨1, _⟩ =>
    show win0_8.index ⟨(i 1).val / 2048, ht⟩ (1 : Fin 2) * 2048 ≤ (i 1).val
      ∧ (i 1).val < win0_8.index ⟨(i 1).val / 2048, ht⟩ (1 : Fin 2) * 2048 + 2048
    have e : win0_8.index ⟨(i 1).val / 2048, ht⟩ (1 : Fin 2) = (i 1).val / 2048 := e81
    omega

/-- The result array of the region ends holding G. -/
theorem final (c : Dev nD) : (dats m 0 c).arrAt 8 cfg0.N = G m c :=
  (dats m 0 c).arrAt_eq_of_cover 8 (G m c) (fun t _ => flushed_eq m c t) cover

/-- After the region the one remaining operation reshapes the [1, 65536] result to [65536, 1]: entry (b, 0) of the
    reshaped array is column b of G, the selecting form of row b. -/
theorem tail_eq (c : Dev nD) :
    Pipeline.afterTail₀ cfgs (dats m) 0 (V0 m) [hostOps1] c main_v10
      = Cert.BucketNet.outSel (V m c main_arg0) (V m c main_v1) (V m c main_v6) (V m c main_arg4) (V m c main_v7)
          (V m c main_arg6) (V m c main_v8) (V m c main_arg8) := by
  have hw : Pipeline.withArrays (cfgs 0).spec c (V0 m c) (fun w => (dats m 0 c).arrAt w (cfgs 0).N)
      (Proc.devRef .tc main_v9) = G m c :=
    (Pipeline.withArrays_arr spec0 launch0.win.arr_inj c _ _ 8).trans (final m c)
  unfold Pipeline.afterTail₀
  show StableHlo.after hostOps1 _ (Proc.devRef .tc main_v10) = _
  after_results
  funext i
  obtain ⟨b, z, rfl⟩ : ∃ (b : Fin 65536) (z : Fin 1), i = ix2 b z := ⟨i 0, i 1, eq_ix2 i⟩
  have hz : z.val = 0 := by omega
  show shapeCast S65536x1 (Pipeline.withArrays (cfgs 0).spec c (V0 m c) (fun w => (dats m 0 c).arrAt w (cfgs 0).N)
      (Proc.devRef .tc main_v9)) shapeCasts_S1x65536_S65536x1 (ix2 b z) = _
  refine (shapeCast_apply _ _ (ix2 b z) (ix2 (0 : Fin 1) b) ?_).trans ?_
  · rw [Shape.rowMajor_val_two, Shape.rowMajor_val_two]
    show (0 : Fin 1).val * 65536 + b.val = b.val * 1 + z.val
    simp only [Fin.val_zero]; omega
  · exact congrFun hw (ix2 (0 : Fin 1) b)

/-- After the run the result buffer holds the selecting form over the whole arrays: it is no array of the region, so it
    ends as the operation after the region leaves it; the argument arrays among its operands are as launched. -/
theorem post_value (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v10)
      = Cert.BucketNet.outSel (m ((c.tc : Thread nD τ).loc main_arg0)) (V m c main_v1) (V m c main_v6)
          (m ((c.tc : Thread nD τ).loc main_arg4)) (V m c main_v7) (m ((c.tc : Thread nD τ).loc main_arg6))
          (V m c main_v8) (m ((c.tc : Thread nD τ).loc main_arg8)) := by
  refine (((h c).2 main_v10 (Pipeline.mem_restRefs_of main_v10 (by decide) (by decide))).trans (tail_eq m c)).trans ?_
  rw [V_main_arg0 m c, V_main_arg4 m c, V_main_arg6 m c, V_main_arg8 m c]

/-- The program's run with its result named: entry (b, 0) is the selecting form of row b of the input, over the weight
    arrays as the region finds them; the arguments end unchanged. -/
theorem run_value :
    θ_run (defs (F := Ideal)) (onTc (τ := τ) (main (F := Ideal))) ⟨m, fun _ => 0, ρ⟩ (fun r => ∀ c : Dev nD,
      r.2.mem ((c.tc : Thread nD τ).loc main_v10)
        = Cert.BucketNet.outSel (m ((c.tc : Thread nD τ).loc main_arg0)) (V m c main_v1) (V m c main_v6)
            (m ((c.tc : Thread nD τ).loc main_arg4)) (V m c main_v7) (m ((c.tc : Thread nD τ).loc main_arg6))
            (V m c main_v8) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨post_value m r h c,
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c))),
      ((h c).2 main_arg5 (Pipeline.mem_restRefs_of main_arg5 (by decide) (by decide))).trans (W_main_arg5 m (dats m) c),
      ((h c).1 5).trans (((dats m 0 c).arrAt_in 5 rfl _).trans ((A_eq m c 5).trans (V_main_arg6 m c))),
      ((h c).2 main_arg7 (Pipeline.mem_restRefs_of main_arg7 (by decide) (by decide))).trans (W_main_arg7 m (dats m) c),
      ((h c).1 7).trans (((dats m 0 c).arrAt_in 7 rfl _).trans ((A_eq m c 7).trans (V_main_arg8 m c)))⟩)
    (run_main m ρ)

end Cert.KernelIdeal.Array

end
-- ==== Proof.LibRowGather.lean ====
/-
  Taking rows of a table: the gather that x[idx] of an [N × C] array lowers to, read at an entry.

  With the row axis collapsed and start-indexed and the column axis an offset axis of full width, entry (r, q) of
  the result is the table's entry (row, q), where row is start index r read as a signed integer and clamped to
  [0, N − 1].  A start index that already names a row is left as it is.
-/
import Idealize.ShloMosaic.Lib.ValueIdx

noncomputable section

namespace Cert.LibRowGather

open Idealize.ShloMosaic Idealize.ShloMosaic.ValueIdx

/-- Entry (r, q) of a row gather is the table's entry (row, q) for a start index that names the row. -/
theorem gather_rows_apply {α : Type} {N C n : Nat}
    (d : GatherDims ⟨2, ![N, C]⟩ ⟨2, ![n, 1]⟩ ⟨2, ![n, C]⟩)
    (hoff : d.offsetDims = [1]) (hcol : d.collapsedSliceDims = [0]) (hob : d.operandBatchingDims = [])
    (hsb : d.startIndicesBatchingDims = []) (hmap : d.startIndexMap = [0]) (hiv : d.indexVectorDim = 1)
    (hsl : d.sliceSizes = ![1, C])
    (x : (⟨2, ![N, C]⟩ : Shape).Idx → α) (idx : IVec ⟨2, ![n, 1]⟩ 32) (r : Fin n) (q : Fin C) (row : Fin N)
    (hrow : (idx (ix2 r (0 : Fin 1))).toInt = (row.val : Int)) :
    Host.gather d x idx (ix2 r q) = x (ix2 row q) := by
  -- the record's data are the seven printed lists: make them literal so that the axis bookkeeping computes
  obtain ⟨od, cd, obd, sbd, sim, ivd, ss, wf⟩ := d
  dsimp only at hoff hcol hob hsb hmap hiv hsl
  subst hoff hcol hob hsb hmap hiv hsl
  unfold Host.gather
  refine congrArg x (funext fun a => ?_)
  match a with
  | ⟨0, _⟩ =>
    -- the row axis: collapsed and start-indexed, so the operand's row is the clamped start index alone
    apply Fin.ext
    simp only [GatherDims.operandIdx]
    rw [GatherDims.batchCoord_eq_zero _ _ _ (by exact List.not_mem_nil),
      GatherDims.offCoord_eq_zero _ _ _ (by rw [GatherDims.mem_sKept]; simp)]
    unfold GatherDims.start
    rw [dif_pos (by simp)]
    -- the start index is read at (r, 0): r from the result's batch axis, 0 on the index vector's axis
    generalize hX : GatherDims.siIdx _ (ix2 r q) _ = X
    have hX' : X = ix2 r (0 : Fin 1) := by
      rw [← hX]
      funext b
      match b with
      | ⟨0, _⟩ => rfl
      | ⟨1, _⟩ => rfl
    rw [hX', hrow]
    show min ((row.val : Int)).toNat (N - 1) = row.val
    have hlt := row.isLt
    rw [Int.toNat_natCast]
    omega
  | ⟨1, _⟩ =>
    -- the column axis: an offset axis of full width, no start, so the operand's column is the result's
    apply Fin.ext
    simp only [GatherDims.operandIdx]
    rw [GatherDims.batchCoord_eq_zero _ _ _ (by exact List.not_mem_nil)]
    unfold GatherDims.start
    rw [dif_neg (by simp)]
    unfold GatherDims.offCoord
    rw [dif_pos (by rw [GatherDims.mem_sKept]; simp)]
    simp only [Nat.zero_add]
    rfl

end Cert.LibRowGather

end
-- ==== Proof.RefValue.lean ====
/-
  The reference, read at an entry: the own-bucket form of every row.

  Each layer computes every bucket's units for every row, lays the result out as 8·65536 flat rows of one bucket's width
  (flat row 8·b + c is bucket c of row b, by the row-major order of the two reshapes) and takes flat row label + 8·b for
  row b.  With the label below 8 that sum does not wrap as a 32-bit word, is not negative, so the wrap of a negative
  index leaves it, and names a flat row, so the gather's clamp leaves it: the row taken is the label's bucket of row b.
  A layer's product with a transposed weight table is the inner product of the input row with a weight row.  Composing
  the three layers gives the first hidden vector (clamped, with the factor term added after the gather), the second, and
  the result.
-/
import proofs.«430224_j24721831756095_3_alg».proof.Proof.Gen.ReferenceIdeal.Run
import proofs.«430224_j24721831756095_3_alg».proof.Proof.Gen.ReferenceIdeal.Read
import proofs.«430224_j24721831756095_3_alg».proof.Proof.BucketNet
import proofs.«430224_j24721831756095_3_alg».proof.Proof.LibRowGather
import Idealize.ShloMosaic.Lib.Pipeline.Value
import Idealize.ShloMosaic.Lib.StableHlo.Predicate

noncomputable section

open scoped BigOperators

namespace Cert.ReferenceIdeal.RefValue

open Idealize.ShloMosaic Idealize.ShloMosaic.TcCoe Idealize.ShloMosaic.ValueIdx Idealize.SL.Sem Cert.ReferenceIdeal Cert.ReferenceIdeal.Gen Cert.ReferenceIdeal.Read

/-! ## The row a label names

The flat row of bucket l of batch row b is 8·b + l.  As 32-bit words the sum does not wrap (it is below 2¹⁹), so it is
not negative: the wrap of a negative index leaves it alone, and read as a signed integer it is the number itself. -/

/-- The start index of batch row b: its label plus eight times b, read as a signed integer, is 8·b + label. -/
theorem start_word (w : BitVec 32) (b : Fin 65536) (hw : w.toNat < 8) :
    (Scalar.select (IntOp.cmpi .slt (IntOp.addi w (IntOp.muli (BitVec.ofNat 32 b.val) 8#32)) 0#32)
        (IntOp.addi (IntOp.addi w (IntOp.muli (BitVec.ofNat 32 b.val) 8#32)) 524288#32)
        (IntOp.addi w (IntOp.muli (BitVec.ofNat 32 b.val) 8#32))).toInt = ((8 * b.val + w.toNat : Nat) : Int) := by
  have hb := b.isLt
  have hn : (IntOp.addi w (IntOp.muli (BitVec.ofNat 32 b.val) 8#32)).toNat = 8 * b.val + w.toNat := by
    unfold IntOp.addi IntOp.muli
    rw [BitVec.toNat_add, BitVec.toNat_mul, BitVec.toNat_ofNat]
    show (w.toNat + b.val % 2 ^ 32 * 8 % 2 ^ 32) % 2 ^ 32 = 8 * b.val + w.toNat
    omega
  have hnot : ¬ IntOp.cmpi .slt (IntOp.addi w (IntOp.muli (BitVec.ofNat 32 b.val) 8#32)) 0#32 = 1#1 := by
    rw [StableHlo.Predicate.slt_iff_toNat (by rw [hn]; omega) (by decide)]
    exact Nat.not_lt_zero _
  rw [eq_zero_of_ne_one hnot, select_zero, StableHlo.Predicate.toInt_eq_toNat_of_lt (by rw [hn]; omega), hn]

/-- Column 0 of row b of the start-index array reads the index vector at b. -/
theorem idx18_at (b : Fin 65536) : idx_main_v18 (ix2 b (0 : Fin 1)) = ix1 b :=
  funext fun a => by match a with | ⟨0, _⟩ => rfl

/-- The first gather's start index at row b is 8·b + label. -/
theorem start_v18 (x1 : (⟨S65536, .i32⟩ : BufTy).Contents (Elt Ideal)) (b : Fin 65536)
    (hw : ((x1 : IVec S65536 32) (ix1 b)).toNat < 8) :
    ((val_main_v18 (F := Ideal) x1 : IVec S65536x1 32) (ix2 b (0 : Fin 1))).toInt
      = ((8 * b.val + ((x1 : IVec S65536 32) (ix1 b)).toNat : Nat) : Int) := by
  rw [val_main_v18_apply, idx18_at, val_main_v17_apply, val_main_v14_apply, val_main_v16_apply, val_main_v3_apply,
    val_main_v2_apply, val_main_v1_apply, val_main_v13_apply, val_main_v15_apply]
  exact start_word _ b hw

/-- The second gather's start index at row b is 8·b + label. -/
theorem start_v34 (x1 : (⟨S65536, .i32⟩ : BufTy).Contents (Elt Ideal)) (b : Fin 65536)
    (hw : ((x1 : IVec S65536 32) (ix1 b)).toNat < 8) :
    ((val_main_v34 (F := Ideal) x1 : IVec S65536x1 32) (ix2 b (0 : Fin 1))).toInt
      = ((8 * b.val + ((x1 : IVec S65536 32) (ix1 b)).toNat : Nat) : Int) := by
  rw [val_main_v34_apply, show idx_main_v34 (ix2 b (0 : Fin 1)) = ix1 b from idx18_at b, val_main_v33_apply,
    val_main_v30_apply, val_main_v32_apply, val_main_v3_apply, val_main_v2_apply, val_main_v1_apply, val_main_v29_apply,
    val_main_v31_apply]
  exact start_word _ b hw

/-- The third gather's start index at row b is 8·b + label. -/
theorem start_v49 (x1 : (⟨S65536, .i32⟩ : BufTy).Contents (Elt Ideal)) (b : Fin 65536)
    (hw : ((x1 : IVec S65536 32) (ix1 b)).toNat < 8) :
    ((val_main_v49 (F := Ideal) x1 : IVec S65536x1 32) (ix2 b (0 : Fin 1))).toInt
      = ((8 * b.val + ((x1 : IVec S65536 32) (ix1 b)).toNat : Nat) : Int) := by
  rw [val_main_v49_apply, show idx_main_v49 (ix2 b (0 : Fin 1)) = ix1 b from idx18_at b, val_main_v48_apply,
    val_main_v45_apply, val_main_v47_apply, val_main_v3_apply, val_main_v2_apply, val_main_v1_apply, val_main_v44_apply,
    val_main_v46_apply]
  exact start_word _ b hw

/-! ## The two reshapes

Row-major positions are kept: entry (8·b + l, j) of the [524288 × 32] array is entry (b, l, j) of the [65536 × 8 × 32]
array, which is entry (b, 32·l + j) of the [65536 × 256] array; with width 1 in place of 32, entry (8·b + l, 0) is
entry (b, l) of the [65536 × 8] array. -/

/-- Flat row 8·b + l, column j of the width-32 reshape is column 32·l + j of row b. -/
theorem flat32 (b : Fin 65536) (l : Fin 8) (j : Fin 32) (row : Fin 524288) (hrow : row.val = 8 * b.val + l.val) :
    idx_main_v11 (idx_main_v12 (ix2 row j)) = ix2 b (Cert.BucketNet.unit l j) := by
  have hb := b.isLt; have hl := l.isLt; have hj := j.isLt
  funext a
  apply Fin.ext
  match a with
  | ⟨0, _⟩ =>
    show (((row.val * 32 + j.val) / 256 * 8 + (row.val * 32 + j.val) / 32 % 8) * 32 + (row.val * 32 + j.val) % 32) / 256 = b.val
    omega
  | ⟨1, _⟩ =>
    show (((row.val * 32 + j.val) / 256 * 8 + (row.val * 32 + j.val) / 32 % 8) * 32 + (row.val * 32 + j.val) % 32) % 256
      = 32 * l.val + j.val
    omega

/-- Flat row 8·b + l of the width-1 reshape is column l of row b. -/
theorem flat1 (b : Fin 65536) (l : Fin 8) (row : Fin 524288) (hrow : row.val = 8 * b.val + l.val) :
    idx_main_v42 (idx_main_v43 (ix2 row (0 : Fin 1))) = ix2 b l := by
  have hb := b.isLt; have hl := l.isLt
  funext a
  apply Fin.ext
  match a with
  | ⟨0, _⟩ =>
    show ((((row.val * 1 + 0) / 8) * 8 + (row.val * 1 + 0) / 1 % 8) * 1 + 0) / 8 = b.val
    omega
  | ⟨1, _⟩ =>
    show ((((row.val * 1 + 0) / 8) * 8 + (row.val * 1 + 0) / 1 % 8) * 1 + 0) % 8 = l.val
    omega

/-! ## The dense stages

Each layer's product with the transposed weights plus the broadcast bias, read at row b and unit n, is the inner
product of row b of its input with weight row n, plus bias n. -/

/-- The first layer over all buckets, at row b and unit n. -/
theorem v10_at (x0 : (⟨S65536x1024, .f32⟩ : BufTy).Contents (Elt Ideal)) (x3 : (⟨S256x1024, .f32⟩ : BufTy).Contents (Elt Ideal))
    (x4 : (⟨S256, .f32⟩ : BufTy).Contents (Elt Ideal)) (b : Fin 65536) (n : Fin 256) :
    val_main_v10 (F := Ideal) x0 x3 x4 (ix2 b n) = Cert.BucketNet.dense x3 x4 (fun k => x0 (ix2 b k)) n := by
  rw [val_main_v10_apply, val_main_v7_apply, val_main_v9_apply, val_main_v8_apply, Ideal.addf_def]
  unfold Cert.BucketNet.dense
  refine congrArg₂ (· + ·) ?_ ?_
  · refine Finset.sum_congr rfl fun k _ => ?_
    rw [val_main_v6_apply]
    have e1 : lidx_main_v7 (ix2 b n) k = ix2 b k := funext fun a => by match a with | ⟨0, _⟩ => rfl | ⟨1, _⟩ => rfl
    have e2 : idx_main_v6 (ridx_main_v7 (ix2 b n) k) = ix2 n k :=
      funext fun a => by match a with | ⟨0, _⟩ => rfl | ⟨1, _⟩ => rfl
    rw [e1, e2]
  · exact congrArg x4 (funext fun a => by match a with | ⟨0, _⟩ => rfl)

/-! ## The gathers and the layers

Under the range of the labels the start index of batch row b names flat row 8·b + c, c the bucket of its label, so each
gather reads bucket c's block of row b. -/

/-- The flat row of the bucket that the label w names in batch row b. -/
def rowOf (w : BitVec 32) (b : Fin 65536) : Fin 524288 :=
  ⟨8 * b.val + (Cert.BucketNet.bucket w).val, by have := b.isLt; have := (Cert.BucketNet.bucket w).isLt; omega⟩

/-- For a label below 8 the number 8·b + label is that flat row. -/
theorem rowOf_int (w : BitVec 32) (b : Fin 65536) (hw : w.toNat < 8) :
    ((8 * b.val + w.toNat : Nat) : Int) = ((rowOf w b).val : Int) := by
  show ((8 * b.val + w.toNat : Nat) : Int) = ((8 * b.val + w.toNat % 8 : Nat) : Int)
  rw [Nat.mod_eq_of_lt hw]

/-- The first gather at (b, j): unit j of the label's bucket of the first layer, before the factor term. -/
theorem v19_at (x0 : (⟨S65536x1024, .f32⟩ : BufTy).Contents (Elt Ideal)) (x1 : (⟨S65536, .i32⟩ : BufTy).Contents (Elt Ideal))
    (x3 : (⟨S256x1024, .f32⟩ : BufTy).Contents (Elt Ideal)) (x4 : (⟨S256, .f32⟩ : BufTy).Contents (Elt Ideal))
    (b : Fin 65536) (j : Fin 32) (hw : ((x1 : IVec S65536 32) (ix1 b)).toNat < 8) :
    val_main_v19 (F := Ideal) x0 x1 x3 x4 (ix2 b j)
      = Cert.BucketNet.dense x3 x4 (fun k => x0 (ix2 b k))
          (Cert.BucketNet.unit (Cert.BucketNet.bucket ((x1 : IVec S65536 32) (ix1 b))) j) := by
  unfold val_main_v19
  refine (Cert.LibRowGather.gather_rows_apply _ rfl rfl rfl rfl rfl rfl rfl (val_main_v12 (F := Ideal) x0 x3 x4)
    (val_main_v18 (F := Ideal) x1) b j (rowOf ((x1 : IVec S65536 32) (ix1 b)) b)
    ((start_v18 x1 b hw).trans (rowOf_int _ b hw))).trans ?_
  rw [val_main_v12_apply, val_main_v11_apply, flat32 b (Cert.BucketNet.bucket ((x1 : IVec S65536 32) (ix1 b))) j _ rfl,
    v10_at]

/-- The first hidden layer at (b, j): the clamp of unit j of the label's bucket plus the factor term. -/
theorem v21_at (x0 : (⟨S65536x1024, .f32⟩ : BufTy).Contents (Elt Ideal)) (x1 : (⟨S65536, .i32⟩ : BufTy).Contents (Elt Ideal))
    (x2 : (⟨S32x1024, .f32⟩ : BufTy).Contents (Elt Ideal)) (x3 : (⟨S256x1024, .f32⟩ : BufTy).Contents (Elt Ideal))
    (x4 : (⟨S256, .f32⟩ : BufTy).Contents (Elt Ideal))
    (b : Fin 65536) (j : Fin 32) (hw : ((x1 : IVec S65536 32) (ix1 b)).toNat < 8) :
    val_main_v21 (F := Ideal) x0 x1 x2 x3 x4 (ix2 b j)
      = Cert.BucketNet.clip01 (Cert.BucketNet.dense x3 x4 (fun k => x0 (ix2 b k))
          (Cert.BucketNet.unit (Cert.BucketNet.bucket ((x1 : IVec S65536 32) (ix1 b))) j)
            + ∑ k : Fin 1024, x0 (ix2 b k) * x2 (ix2 j k)) := by
  have hs : (∑ k : Fin 1024, x0 (lidx_main_v5 (ix2 b j) k) * (val_main_v4 (F := Ideal) x2) (ridx_main_v5 (ix2 b j) k))
      = ∑ k : Fin 1024, x0 (ix2 b k) * x2 (ix2 j k) := by
    refine Finset.sum_congr rfl fun k _ => ?_
    rw [val_main_v4_apply]
    have e1 : lidx_main_v5 (ix2 b j) k = ix2 b k := funext fun a => by match a with | ⟨0, _⟩ => rfl | ⟨1, _⟩ => rfl
    have e2 : idx_main_v4 (ridx_main_v5 (ix2 b j) k) = ix2 j k :=
      funext fun a => by match a with | ⟨0, _⟩ => rfl | ⟨1, _⟩ => rfl
    rw [e1, e2]
  rw [val_main_v21_apply, val_main_call0_v4_apply, val_main_call0_v3_apply, val_main_cst_2_apply,
    val_main_call0_v2_apply, val_main_call0_v1_apply, val_main_call0_v0_apply, val_main_cst_apply, val_main_v20_apply,
    v19_at x0 x1 x3 x4 b j hw, val_main_v5_apply, hs]
  rfl

/-- The second layer over all buckets, at row b and unit n, over the first hidden layer's row b. -/
theorem v26_at (x0 : (⟨S65536x1024, .f32⟩ : BufTy).Contents (Elt Ideal)) (x1 : (⟨S65536, .i32⟩ : BufTy).Contents (Elt Ideal))
    (x2 : (⟨S32x1024, .f32⟩ : BufTy).Contents (Elt Ideal)) (x3 : (⟨S256x1024, .f32⟩ : BufTy).Contents (Elt Ideal))
    (x4 : (⟨S256, .f32⟩ : BufTy).Contents (Elt Ideal)) (x5 : (⟨S256x32, .f32⟩ : BufTy).Contents (Elt Ideal))
    (x6 : (⟨S256, .f32⟩ : BufTy).Contents (Elt Ideal)) (b : Fin 65536) (n : Fin 256) :
    val_main_v26 (F := Ideal) x0 x1 x2 x3 x4 x5 x6 (ix2 b n)
      = Cert.BucketNet.dense x5 x6 (fun k => val_main_v21 (F := Ideal) x0 x1 x2 x3 x4 (ix2 b k)) n := by
  rw [val_main_v26_apply, val_main_v23_apply, val_main_v25_apply, val_main_v24_apply, Ideal.addf_def]
  unfold Cert.BucketNet.dense
  refine congrArg₂ (· + ·) ?_ ?_
  · refine Finset.sum_congr rfl fun k _ => ?_
    rw [val_main_v22_apply]
    have e1 : lidx_main_v23 (ix2 b n) k = ix2 b k := funext fun a => by match a with | ⟨0, _⟩ => rfl | ⟨1, _⟩ => rfl
    have e2 : idx_main_v22 (ridx_main_v23 (ix2 b n) k) = ix2 n k :=
      funext fun a => by match a with | ⟨0, _⟩ => rfl | ⟨1, _⟩ => rfl
    rw [e1, e2]
  · exact congrArg x6 (funext fun a => by match a with | ⟨0, _⟩ => rfl)

/-- The second gather at (b, j): unit j of the label's bucket of the second layer. -/
theorem v35_at (x0 : (⟨S65536x1024, .f32⟩ : BufTy).Contents (Elt Ideal)) (x1 : (⟨S65536, .i32⟩ : BufTy).Contents (Elt Ideal))
    (x2 : (⟨S32x1024, .f32⟩ : BufTy).Contents (Elt Ideal)) (x3 : (⟨S256x1024, .f32⟩ : BufTy).Contents (Elt Ideal))
    (x4 : (⟨S256, .f32⟩ : BufTy).Contents (Elt Ideal)) (x5 : (⟨S256x32, .f32⟩ : BufTy).Contents (Elt Ideal))
    (x6 : (⟨S256, .f32⟩ : BufTy).Contents (Elt Ideal)) (b : Fin 65536) (j : Fin 32) (hw : ((x1 : IVec S65536 32) (ix1 b)).toNat < 8) :
    val_main_v35 (F := Ideal) x0 x1 x2 x3 x4 x5 x6 (ix2 b j)
      = Cert.BucketNet.dense x5 x6 (fun k => val_main_v21 (F := Ideal) x0 x1 x2 x3 x4 (ix2 b k))
          (Cert.BucketNet.unit (Cert.BucketNet.bucket ((x1 : IVec S65536 32) (ix1 b))) j) := by
  unfold val_main_v35
  refine (Cert.LibRowGather.gather_rows_apply _ rfl rfl rfl rfl rfl rfl rfl
    (val_main_v28 (F := Ideal) x0 x1 x2 x3 x4 x5 x6) (val_main_v34 (F := Ideal) x1) b j
    (rowOf ((x1 : IVec S65536 32) (ix1 b)) b) ((start_v34 x1 b hw).trans (rowOf_int _ b hw))).trans ?_
  rw [val_main_v28_apply, val_main_v27_apply,
    show idx_main_v27 (idx_main_v28 (ix2 (rowOf ((x1 : IVec S65536 32) (ix1 b)) b) j))
        = ix2 b (Cert.BucketNet.unit (Cert.BucketNet.bucket ((x1 : IVec S65536 32) (ix1 b))) j)
      from flat32 b (Cert.BucketNet.bucket ((x1 : IVec S65536 32) (ix1 b))) j _ rfl,
    v26_at]

/-- The second hidden layer at (b, j): the clamp of unit j of the label's bucket. -/
theorem v36_at (x0 : (⟨S65536x1024, .f32⟩ : BufTy).Contents (Elt Ideal)) (x1 : (⟨S65536, .i32⟩ : BufTy).Contents (Elt Ideal))
    (x2 : (⟨S32x1024, .f32⟩ : BufTy).Contents (Elt Ideal)) (x3 : (⟨S256x1024, .f32⟩ : BufTy).Contents (Elt Ideal))
    (x4 : (⟨S256, .f32⟩ : BufTy).Contents (Elt Ideal)) (x5 : (⟨S256x32, .f32⟩ : BufTy).Contents (Elt Ideal))
    (x6 : (⟨S256, .f32⟩ : BufTy).Contents (Elt Ideal)) (b : Fin 65536) (j : Fin 32) (hw : ((x1 : IVec S65536 32) (ix1 b)).toNat < 8) :
    val_main_v36 (F := Ideal) x0 x1 x2 x3 x4 x5 x6 (ix2 b j)
      = Cert.BucketNet.clip01 (Cert.BucketNet.dense x5 x6 (fun k => val_main_v21 (F := Ideal) x0 x1 x2 x3 x4 (ix2 b k))
          (Cert.BucketNet.unit (Cert.BucketNet.bucket ((x1 : IVec S65536 32) (ix1 b))) j)) := by
  rw [val_main_v36_apply, val_main_call1_v4_apply, val_main_call1_v3_apply, val_main_cst_6_apply,
    val_main_call1_v2_apply, val_main_call1_v1_apply, val_main_call1_v0_apply, val_main_cst_5_apply,
    v35_at x0 x1 x2 x3 x4 x5 x6 b j hw]
  rfl

/-- The last layer over all buckets, at row b and bucket c, over the second hidden layer's row b. -/
theorem v41_at (x0 : (⟨S65536x1024, .f32⟩ : BufTy).Contents (Elt Ideal)) (x1 : (⟨S65536, .i32⟩ : BufTy).Contents (Elt Ideal))
    (x2 : (⟨S32x1024, .f32⟩ : BufTy).Contents (Elt Ideal)) (x3 : (⟨S256x1024, .f32⟩ : BufTy).Contents (Elt Ideal))
    (x4 : (⟨S256, .f32⟩ : BufTy).Contents (Elt Ideal)) (x5 : (⟨S256x32, .f32⟩ : BufTy).Contents (Elt Ideal))
    (x6 : (⟨S256, .f32⟩ : BufTy).Contents (Elt Ideal)) (x7 : (⟨S8x32, .f32⟩ : BufTy).Contents (Elt Ideal))
    (x8 : (⟨S8, .f32⟩ : BufTy).Contents (Elt Ideal)) (b : Fin 65536) (c : Fin 8) :
    val_main_v41 (F := Ideal) x0 x1 x2 x3 x4 x5 x6 x7 x8 (ix2 b c)
      = Cert.BucketNet.dense x7 x8 (fun k => val_main_v36 (F := Ideal) x0 x1 x2 x3 x4 x5 x6 (ix2 b k)) c := by
  rw [val_main_v41_apply, val_main_v38_apply, val_main_v40_apply, val_main_v39_apply, Ideal.addf_def]
  unfold Cert.BucketNet.dense
  refine congrArg₂ (· + ·) ?_ ?_
  · refine Finset.sum_congr rfl fun k _ => ?_
    rw [val_main_v37_apply]
    have e1 : lidx_main_v38 (ix2 b c) k = ix2 b k := funext fun a => by match a with | ⟨0, _⟩ => rfl | ⟨1, _⟩ => rfl
    have e2 : idx_main_v37 (ridx_main_v38 (ix2 b c) k) = ix2 c k :=
      funext fun a => by match a with | ⟨0, _⟩ => rfl | ⟨1, _⟩ => rfl
    rw [e1, e2]
  · exact congrArg x8 (funext fun a => by match a with | ⟨0, _⟩ => rfl)

/-- The last gather at (b, 0): the label's bucket of the last layer. -/
theorem v50_at (x0 : (⟨S65536x1024, .f32⟩ : BufTy).Contents (Elt Ideal)) (x1 : (⟨S65536, .i32⟩ : BufTy).Contents (Elt Ideal))
    (x2 : (⟨S32x1024, .f32⟩ : BufTy).Contents (Elt Ideal)) (x3 : (⟨S256x1024, .f32⟩ : BufTy).Contents (Elt Ideal))
    (x4 : (⟨S256, .f32⟩ : BufTy).Contents (Elt Ideal)) (x5 : (⟨S256x32, .f32⟩ : BufTy).Contents (Elt Ideal))
    (x6 : (⟨S256, .f32⟩ : BufTy).Contents (Elt Ideal)) (x7 : (⟨S8x32, .f32⟩ : BufTy).Contents (Elt Ideal))
    (x8 : (⟨S8, .f32⟩ : BufTy).Contents (Elt Ideal)) (b : Fin 65536) (hw : ((x1 : IVec S65536 32) (ix1 b)).toNat < 8) :
    val_main_v50 (F := Ideal) x0 x1 x2 x3 x4 x5 x6 x7 x8 (ix2 b (0 : Fin 1))
      = Cert.BucketNet.dense x7 x8 (fun k => val_main_v36 (F := Ideal) x0 x1 x2 x3 x4 x5 x6 (ix2 b k))
          (Cert.BucketNet.bucket ((x1 : IVec S65536 32) (ix1 b))) := by
  unfold val_main_v50
  refine (Cert.LibRowGather.gather_rows_apply _ rfl rfl rfl rfl rfl rfl rfl
    (val_main_v43 (F := Ideal) x0 x1 x2 x3 x4 x5 x6 x7 x8) (val_main_v49 (F := Ideal) x1) b (0 : Fin 1)
    (rowOf ((x1 : IVec S65536 32) (ix1 b)) b) ((start_v49 x1 b hw).trans (rowOf_int _ b hw))).trans ?_
  rw [val_main_v43_apply, val_main_v42_apply,
    flat1 b (Cert.BucketNet.bucket ((x1 : IVec S65536 32) (ix1 b))) _ rfl, v41_at]

/-- The reference's result is the own-bucket form of every row, when every label is one of the eight buckets: flat row
    8·b + label of the [8·65536 × width] reshape is then the label's unit block of row b, and neither the wrap of a
    negative index nor the clamp changes it. -/
theorem ref_value (x0 : (⟨S65536x1024, .f32⟩ : BufTy).Contents (Elt Ideal)) (x1 : (⟨S65536, .i32⟩ : BufTy).Contents (Elt Ideal))
    (x2 : (⟨S32x1024, .f32⟩ : BufTy).Contents (Elt Ideal)) (x3 : (⟨S256x1024, .f32⟩ : BufTy).Contents (Elt Ideal))
    (x4 : (⟨S256, .f32⟩ : BufTy).Contents (Elt Ideal)) (x5 : (⟨S256x32, .f32⟩ : BufTy).Contents (Elt Ideal))
    (x6 : (⟨S256, .f32⟩ : BufTy).Contents (Elt Ideal)) (x7 : (⟨S8x32, .f32⟩ : BufTy).Contents (Elt Ideal))
    (x8 : (⟨S8, .f32⟩ : BufTy).Contents (Elt Ideal))
    (hrange : ∀ b : Fin 65536, ((x1 : IVec S65536 32) (ix1 b)).toNat < 8) :
    val_main_v50 (F := Ideal) x0 x1 x2 x3 x4 x5 x6 x7 x8 = Cert.BucketNet.outOwn x0 x1 x2 x3 x4 x5 x6 x7 x8 := by
  funext i
  obtain ⟨b, q, rfl⟩ : ∃ (b : Fin 65536) (q : Fin 1), i = ix2 b q := ⟨i 0, i 1, eq_ix2 i⟩
  obtain rfl : q = 0 := Subsingleton.elim _ _
  rw [v50_at x0 x1 x2 x3 x4 x5 x6 x7 x8 b (hrange b)]
  show _ = Cert.BucketNet.rowOwn (fun k => x0 (ix2 b k)) (Cert.BucketNet.bucket ((x1 : IVec S65536 32) (ix1 b)))
    x2 x3 x4 x5 x6 x7 x8
  unfold Cert.BucketNet.rowOwn
  simp only [v36_at x0 x1 x2 x3 x4 x5 x6 b _ (hrange b), v21_at x0 x1 x2 x3 x4 b _ (hrange b)]

end Cert.ReferenceIdeal.RefValue

end
-- ==== Proof.PreDecode.lean ====
/-
  What the precondition says about the inputs.

  The precondition is the conjunction of nine tests, each a conjunction over all entries of an array: |entry| < +∞ for
  the eight float arrays, and 0 ≤ label < 8 as signed 32-bit integers for the label array.  An extended real whose absolute
  value is below +∞ is a real number; a word that is at least 0 and below 8 read signed has unsigned value below 8.
-/
import proofs.«430224_j24721831756095_3_alg».proof.Pre_finite_inputs
import proofs.«430224_j24721831756095_3_alg».proof.Proof.Gen.Pre_finite_inputs
import proofs.«430224_j24721831756095_3_alg».proof.Proof.BucketNet
import Idealize.ShloMosaic.Lib.ReduceAll
import Idealize.ShloMosaic.Lib.StableHlo.Predicate

noncomputable section

open scoped BigOperators

namespace Cert.PreDecode

open Idealize.ShloMosaic Idealize.ShloMosaic.ValueIdx Cert.Pre_finite_inputs

/-- The f32 pattern with every exponent bit set and no fraction bit denotes +∞. -/
theorem ofBits_inf : Ideal.ofBits .f32 0x7F800000#32 = (⊤ : EReal) := by
  simp [Ideal.ofBits, Ideal.ieee]

/-- An extended real whose absolute value max v (-v) lies strictly below +∞ is a real number:
    at ⊤ the maximum is ⊤, at ⊥ its negation is ⊤. -/
theorem isReal_of_abs_lt (v : EReal)
    (h : Ideal.cmp .olt (max v (-v)) (Ideal.ofBits .f32 0x7F800000#32) = 1#1) : Cert.BucketNet.IsReal v := by
  rw [ofBits_inf] at h
  have hlt : max v (-v) < ⊤ := by
    simpa [Ideal.cmp, StableHlo.Predicate.ofBool_eq_one_iff] using h
  induction v using EReal.rec with
  | bot => simp at hlt
  | coe r => exact ⟨r, rfl⟩
  | top => simp at hlt

/-- A 32-bit word that, read signed, is at least 0 and below 8 has unsigned value below 8: a word whose signed
    reading is not negative reads the same unsigned. -/
theorem toNat_lt_eight (w : BitVec 32) (h0 : IntOp.cmpi .sge w 0#32 = 1#1) (h8 : IntOp.cmpi .slt w 8#32 = 1#1) :
    w.toNat < 8 := by
  have a : (0#32 : BitVec 32).toInt ≤ w.toInt := IntOp.cmpi_sge.1 h0
  have b : w.toInt < (8#32 : BitVec 32).toInt := IntOp.cmpi_slt.1 h8
  have e0 : (0#32 : BitVec 32).toInt = 0 := by decide
  have e8 : (8#32 : BitVec 32).toInt = 8 := by decide
  rw [e0] at a
  rw [e8] at b
  have hw := BitVec.toInt_eq_toNat_cond w
  by_cases hc : 2 * w.toNat < 2 ^ 32
  · rw [if_pos hc] at hw
    omega
  · rw [if_neg hc] at hw
    have := w.isLt
    omega

/-- The result of a reduction over every axis has a single index. -/
instance : Subsingleton S_.Idx := ⟨fun a b => funext fun d => d.elim0⟩

/-- One conjunct of the precondition, read back: if "every |entry| < +∞", reduced by ∧ over all axes, came out true,
    then every entry of the array is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1) (i : s.Idx) : Cert.BucketNet.IsReal (x i) :=
  isReal_of_abs_lt (x i) (Host.reduce_andi_all _ _ hr hu ix0 e i)

variable (x0 : FVec Ideal S65536x1024 .f32) (x1 : IVec S65536 32) (x2 : FVec Ideal S32x1024 .f32)
  (x3 : FVec Ideal S256x1024 .f32) (x4 : FVec Ideal S256 .f32) (x5 : FVec Ideal S256x32 .f32) (x6 : FVec Ideal S256 .f32)
  (x7 : FVec Ideal S8x32 .f32) (x8 : FVec Ideal S8 .f32)

/-- The precondition is a conjunction of nine "for all entries" tests; it holds exactly when each does. Read back:
    the eight float arrays hold real numbers only, and every label has unsigned value below 8. -/
theorem decode (h : fn (F := Ideal) x0 x1 x2 x3 x4 x5 x6 x7 x8 = fun _ => 1#1) :
    (∀ i, Cert.BucketNet.IsReal (x0 i)) ∧ (∀ i, Cert.BucketNet.IsReal (x2 i)) ∧ (∀ i, Cert.BucketNet.IsReal (x3 i))
      ∧ (∀ i, Cert.BucketNet.IsReal (x4 i)) ∧ (∀ i, Cert.BucketNet.IsReal (x5 i)) ∧ (∀ i, Cert.BucketNet.IsReal (x6 i))
      ∧ (∀ i, Cert.BucketNet.IsReal (x7 i)) ∧ (∀ i, Cert.BucketNet.IsReal (x8 i)) ∧ (∀ i, (x1 i).toNat < 8) := by
  have h0 := congrFun h ValueIdx.ix0
  dsimp only [fn, fn_part1, fn_part2] at h0
  -- the chain of ∧ nests to the left: peel the last conjunct off eight times
  obtain ⟨h0, c9⟩ := IntOp.andi_eq_one.1 h0
  obtain ⟨h0, c8⟩ := IntOp.andi_eq_one.1 h0
  obtain ⟨h0, c7⟩ := IntOp.andi_eq_one.1 h0
  obtain ⟨h0, c6⟩ := IntOp.andi_eq_one.1 h0
  obtain ⟨h0, c5⟩ := IntOp.andi_eq_one.1 h0
  obtain ⟨h0, c4⟩ := IntOp.andi_eq_one.1 h0
  obtain ⟨h0, c3⟩ := IntOp.andi_eq_one.1 h0
  obtain ⟨c1, c2⟩ := IntOp.andi_eq_one.1 h0
  refine ⟨real_of_all x0 _ _ _ c1, real_of_all x2 _ _ _ c2, real_of_all x3 _ _ _ c3, real_of_all x4 _ _ _ c4,
    real_of_all x5 _ _ _ c5, real_of_all x6 _ _ _ c6, real_of_all x7 _ _ _ c7, real_of_all x8 _ _ _ c8, fun i => ?_⟩
  -- the label test at one entry is the ∧ of the two signed comparisons with the constants 0 and 8
  have hi := Host.reduce_andi_all _ _ _ _ ix0 c9 i
  obtain ⟨g0, g8⟩ := IntOp.andi_eq_one.1 hi
  exact toNat_lt_eight (x1 i) g0 g8

/-- Under the precondition every label is one of the eight buckets. -/
theorem range (h : fn (F := Ideal) x0 x1 x2 x3 x4 x5 x6 x7 x8 = fun _ => 1#1) (b : Fin 65536) : (x1 (ix1 b)).toNat < 8 :=
  (decode x0 x1 x2 x3 x4 x5 x6 x7 x8 h).2.2.2.2.2.2.2.2 (ix1 b)

/-- Under the precondition every input entry is a real number. -/
theorem real_x (h : fn (F := Ideal) x0 x1 x2 x3 x4 x5 x6 x7 x8 = fun _ => 1#1) (i : S65536x1024.Idx) :
    Cert.BucketNet.IsReal (x0 i) :=
  (decode x0 x1 x2 x3 x4 x5 x6 x7 x8 h).1 i

/-- Under the precondition every entry of the factor table is a real number. -/
theorem real_wf (h : fn (F := Ideal) x0 x1 x2 x3 x4 x5 x6 x7 x8 = fun _ => 1#1) (i : S32x1024.Idx) :
    Cert.BucketNet.IsReal (x2 i) :=
  (decode x0 x1 x2 x3 x4 x5 x6 x7 x8 h).2.1 i

/-- Under the precondition every entry of the first layer's weights is a real number. -/
theorem real_w0 (h : fn (F := Ideal) x0 x1 x2 x3 x4 x5 x6 x7 x8 = fun _ => 1#1) (i : S256x1024.Idx) :
    Cert.BucketNet.IsReal (x3 i) :=
  (decode x0 x1 x2 x3 x4 x5 x6 x7 x8 h).2.2.1 i

end Cert.PreDecode

end
-- ==== Proof.lean ====
/-
  The kernel and the reference compute one function of the inputs when every row's label names one of the eight buckets.

  Both are a three-layer network in which a row uses only the units of its own bucket.  The reference computes every
  bucket's units, lays them out as 8·65536 rows of a bucket's width and takes row 8·b + label for row b; the kernel
  computes every bucket's units too, but chooses by arithmetic: it weights bucket c by 1 when c is the row's label and
  by 0 otherwise and adds the eight products, and it has the factor table added to the first layer's weights beforehand
  instead of adding the factor term afterwards.  With the label in range the clamp the kernel applies to it changes
  nothing and the reference's flat row is the label's block of row b.  Then the two agree row by row: the weights are an
  indicator, 0·v = 0 and 1·v = v on all extended reals, and x·(a + b) = x·a + x·b on the real inputs and tables
  (BucketNet.rowSel_eq_rowOwn).  The changes of float format on the kernel's side are the identity on exact values.

  The three frames are the generated ones (the reference's is its generated run with the result dropped); nothing was
  rewritten on the way to the exact-value program, so there is nothing to preserve.
-/
import proofs.«430224_j24721831756095_3_alg».proof.Defs
import proofs.«430224_j24721831756095_3_alg».proof.Proof.Gen.Kernel.Frame
import proofs.«430224_j24721831756095_3_alg».proof.Proof.Gen.KernelIdeal.Frame
import proofs.«430224_j24721831756095_3_alg».proof.Proof.Gen.ReferenceIdeal.Run
import proofs.«430224_j24721831756095_3_alg».proof.Proof.Gen.ReferenceIdeal.Read
import proofs.«430224_j24721831756095_3_alg».proof.Proof.Gen.Pre_finite_inputs
import proofs.«430224_j24721831756095_3_alg».proof.Proof.BucketNet
import proofs.«430224_j24721831756095_3_alg».proof.Proof.KernelHost
import proofs.«430224_j24721831756095_3_alg».proof.Proof.KernelArray
import proofs.«430224_j24721831756095_3_alg».proof.Proof.RefValue
import proofs.«430224_j24721831756095_3_alg».proof.Proof.PreDecode

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the own-bucket form of every row, of arguments that agree. -/
theorem algebraic : Cert.algebraic_KernelIdeal_ReferenceIdeal := by
  intro m ρ m' ρ' hpre hagree
  refine ⟨fun c => Cert.BucketNet.outOwn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run (Cert.KernelIdeal.defs (F := Ideal)) _ _).mono (fun r h c => ⟨(h c).1.trans ?_, (h c).2⟩)
      (Cert.KernelIdeal.Array.run_value m ρ)
    have hp := hpre c
    funext i
    unfold Cert.BucketNet.outSel Cert.BucketNet.outOwn
    rw [Cert.KernelIdeal.Host.V_v6_eq m c, Cert.KernelIdeal.Host.V_v7_eq m c, Cert.KernelIdeal.Host.V_v8_eq m c]
    have hoh : (fun c' : Fin 8 => (Cert.KernelIdeal.Gen.V m c Cert.KernelIdeal.main_v1 : Cert.KernelIdeal.S65536x8.Idx → EReal) (ix2 (i 0) c'))
        = Cert.BucketNet.onehot (Cert.BucketNet.bucket ((m ((c.tc : Thread Cert.KernelIdeal.nD Cert.KernelIdeal.τ).loc Cert.KernelIdeal.main_arg1)) (ix1 (i 0)))) :=
      funext fun c' => Cert.KernelIdeal.Host.V_v1_apply m c (i 0) c' (Cert.PreDecode.range _ _ _ _ _ _ _ _ _ hp (i 0))
    rw [hoh]
    exact Cert.BucketNet.rowSel_eq_rowOwn _ _ _ _ _ _ _ _ _
      (fun k => Cert.PreDecode.real_x _ _ _ _ _ _ _ _ _ hp _) (fun j => Cert.PreDecode.real_wf _ _ _ _ _ _ _ _ _ hp j)
      (fun j => Cert.PreDecode.real_w0 _ _ _ _ _ _ _ _ _ hp j)
  · refine (θ_run (Cert.ReferenceIdeal.defs (F := Ideal)) _ _).mono (fun r h c => ⟨(h c).1.trans ?_, (h c).2⟩)
      (Cert.ReferenceIdeal.Value.run (F := Ideal) m' ρ')
    rw [Cert.ReferenceIdeal.Read.val_main_v50_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]
    exact Cert.ReferenceIdeal.RefValue.ref_value _ _ _ _ _ _ _ _ _
      (fun b => Cert.PreDecode.range _ _ _ _ _ _ _ _ _ (hpre c) b)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
